-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S128x128 : Shape := ⟨2, ![128, 128]⟩
abbrev S1x1x128 : Shape := ⟨3, ![1, 1, 128]⟩
abbrev S1 : Shape := ⟨1, ![1]⟩
abbrev S640000 : Shape := ⟨1, ![640000]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S1x1x128 : S_.BroadcastsInDim S1x1x128 (![] : Fin 0 → Fin S1x1x128.rank)
  reducesTo_S1x1x128_S_d0_1_2 : S1x1x128.ReducesTo [0, 1, 2] S_
  bcast_S_S1 : S_.BroadcastsInDim S1 (![] : Fin 0 → Fin S1.rank)
  reducesTo_S1_S_d0 : S1.ReducesTo [0] S_

variable [Facts]

def fn_part1 {F : FTy → Type} [FloatOps F] (main_v13 : IVec S_ 1) (main_v16 : IVec S1 1) : IVec S_ 1 :=
  let main_c_5 : IVec S_ 1 := constantI S_ 1 1#1
  let main_v17 : IVec S_ 1 := (fun x v => Host.reduce IntOp.andi x v reducesTo_S1_S_d0 h_S_) main_v16 main_c_5
  let main_v18 : IVec S_ 1 := andi main_v13 main_v17
  main_v18

def fn {F : FTy → Type} [FloatOps F] (main_arg0 : FVec F S10000x128 .f32) (main_arg1 : FVec F S128x128 .f32) (main_arg2 : FVec F S1x1x128 .f32) (main_arg3 : FVec F S1 .f32) (main_arg4 : IVec S640000 32) (main_arg5 : IVec S640000 32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S1x1x128 .f32 := Host.absf main_arg2
  let main_cst_2 : FVec F S_ .f32 := constant S_ .f32 0x7F800000#32
  let main_v10 : FVec F S1x1x128 .f32 := broadcastInDim S1x1x128 ![] bcast_S_S1x1x128 main_cst_2
  let main_v11 : IVec S1x1x128 1 := cmpf .olt main_v9 main_v10
  let main_c_3 : IVec S_ 1 := constantI S_ 1 1#1
  let main_v12 : IVec S_ 1 := (fun x v => Host.reduce IntOp.andi x v reducesTo_S1x1x128_S_d0_1_2 h_S_) main_v11 main_c_3
  let main_v13 : IVec S_ 1 := andi main_v8 main_v12
  let main_v14 : FVec F S1 .f32 := Host.absf main_arg3
  let main_cst_4 : FVec F S_ .f32 := constant S_ .f32 0x7F800000#32
  let main_v15 : FVec F S1 .f32 := broadcastInDim S1 ![] bcast_S_S1 main_cst_4
  let main_v16 : IVec S1 1 := cmpf .olt main_v14 main_v15
  fn_part1 (F := F) main_v13 main_v16
-- ==== Kernel.lean ====
abbrev S10000x128 : Shape := ⟨2, ![10000, 128]⟩
abbrev S128x128 : Shape := ⟨2, ![128, 128]⟩
abbrev S1x1x128 : Shape := ⟨3, ![1, 1, 128]⟩
abbrev S1 : Shape := ⟨1, ![1]⟩
abbrev S640000 : Shape := ⟨1, ![640000]⟩
abbrev S1000x128 : Shape := ⟨2, ![1000, 128]⟩
abbrev S_ : Shape := ⟨0, ![]⟩
abbrev S640000x1 : Shape := ⟨2, ![640000, 1]⟩
abbrev S640000x128 : Shape := ⟨2, ![640000, 128]⟩
abbrev S1x128 : Shape := ⟨2, ![1, 128]⟩
abbrev S3200x128 : Shape := ⟨2, ![3200, 128]⟩
abbrev S3200 : Shape := ⟨1, ![3200]⟩
abbrev S3200x1 : Shape := ⟨2, ![3200, 1]⟩
abbrev S10000 : Shape := ⟨1, ![10000]⟩
abbrev S10000x1 : Shape := ⟨2, ![10000, 1]⟩

abbrev nBuf : Space → Nat
  | .hbm => 58
  | .vmem => 14
  | .smem => 0
  | _ => 0

abbrev bufTy : (tb : Table) → Fin (tcTables nBuf tb) → BufTy
  | .hbm, ⟨0, _⟩ => ⟨S10000x128, .f32⟩
  | .hbm, ⟨1, _⟩ => ⟨S128x128, .f32⟩
  | .hbm, ⟨2, _⟩ => ⟨S1x1x128, .f32⟩
  | .hbm, ⟨3, _⟩ => ⟨S1, .f32⟩
  | .hbm, ⟨4, _⟩ => ⟨S640000, .i32⟩
  | .hbm, ⟨5, _⟩ => ⟨S640000, .i32⟩
  | .hbm, ⟨6, _⟩ => ⟨S10000x128, .f32⟩
  | .hbm, ⟨7, _⟩ => ⟨S_, .i32⟩
  | .hbm, ⟨8, _⟩ => ⟨S640000, .i32⟩
  | .hbm, ⟨9, _⟩ => ⟨S640000, .i1⟩
  | .hbm, ⟨10, _⟩ => ⟨S_, .i32⟩
  | .hbm, ⟨11, _⟩ => ⟨S640000, .i32⟩
  | .hbm, ⟨12, _⟩ => ⟨S640000, .i32⟩
  | .hbm, ⟨13, _⟩ => ⟨S640000, .i32⟩
  | .hbm, ⟨14, _⟩ => ⟨S640000x1, .i32⟩
  | .hbm, ⟨15, _⟩ => ⟨S640000x128, .f32⟩
  | .hbm, ⟨16, _⟩ => ⟨S_, .i32⟩
  | .hbm, ⟨17, _⟩ => ⟨S640000, .i32⟩
  | .hbm, ⟨18, _⟩ => ⟨S640000, .i1⟩
  | .hbm, ⟨19, _⟩ => ⟨S_, .i32⟩
  | .hbm, ⟨20, _⟩ => ⟨S640000, .i32⟩
  | .hbm, ⟨21, _⟩ => ⟨S640000, .i32⟩
  | .hbm, ⟨22, _⟩ => ⟨S640000, .i32⟩
  | .hbm, ⟨23, _⟩ => ⟨S640000x1, .i32⟩
  | .hbm, ⟨24, _⟩ => ⟨S640000x128, .f32⟩
  | .hbm, ⟨25, _⟩ => ⟨S_, .i32⟩
  | .hbm, ⟨26, _⟩ => ⟨S640000, .i32⟩
  | .hbm, ⟨27, _⟩ => ⟨S640000, .i1⟩
  | .hbm, ⟨28, _⟩ => ⟨S_, .i32⟩
  | .hbm, ⟨29, _⟩ => ⟨S640000, .i32⟩
  | .hbm, ⟨30, _⟩ => ⟨S640000, .i32⟩
  | .hbm, ⟨31, _⟩ => ⟨S640000, .i32⟩
  | .hbm, ⟨32, _⟩ => ⟨S640000x1, .i32⟩
  | .hbm, ⟨33, _⟩ => ⟨S640000x128, .f32⟩
  | .hbm, ⟨34, _⟩ => ⟨S1x128, .f32⟩
  | .hbm, ⟨35, _⟩ => ⟨S640000x128, .f32⟩
  | .hbm, ⟨36, _⟩ => ⟨S_, .f32⟩
  | .hbm, ⟨37, _⟩ => ⟨S10000x128, .f32⟩
  | .hbm, ⟨38, _⟩ => ⟨S640000x1, .i32⟩
  | .hbm, ⟨39, _⟩ => ⟨S10000x128, .f32⟩
  | .hbm, ⟨40, _⟩ => ⟨S_, .f32⟩
  | .hbm, ⟨41, _⟩ => ⟨S640000, .f32⟩
  | .hbm, ⟨42, _⟩ => ⟨S_, .f32⟩
  | .hbm, ⟨43, _⟩ => ⟨S10000, .f32⟩
  | .hbm, ⟨44, _⟩ => ⟨S640000x1, .i32⟩
  | .hbm, ⟨45, _⟩ => ⟨S10000, .f32⟩
  | .hbm, ⟨46, _⟩ => ⟨S_, .f32⟩
  | .hbm, ⟨47, _⟩ => ⟨S10000, .f32⟩
  | .hbm, ⟨48, _⟩ => ⟨S10000, .f32⟩
  | .hbm, ⟨49, _⟩ => ⟨S10000x1, .f32⟩
  | .hbm, ⟨50, _⟩ => ⟨S10000x128, .f32⟩
  | .hbm, ⟨51, _⟩ => ⟨S10000x128, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S10000x128, .f32⟩
  | .hbm, ⟨56, _⟩ => ⟨S10000x128, .f32⟩
  | .hbm, ⟨57, _⟩ => ⟨S10000x128, .f32⟩
  | .local _ .vmem, ⟨0, _⟩ => ⟨S1000x128, .f32⟩
  | .local _ .vmem, ⟨1, _⟩ => ⟨S1000x128, .f32⟩
  | .local _ .vmem, ⟨2, _⟩ => ⟨S128x128, .f32⟩
  | .local _ .vmem, ⟨3, _⟩ => ⟨S1000x128, .f32⟩
  | .local _ .vmem, ⟨4, _⟩ => ⟨S1000x128, .f32⟩
  | .local _ .vmem, ⟨5, _⟩ => ⟨S3200x128, .f32⟩
  | .local _ .vmem, ⟨6, _⟩ => ⟨S3200x128, .f32⟩
  | .local _ .vmem, ⟨7, _⟩ => ⟨S3200x128, .f32⟩
  | .local _ .vmem, ⟨8, _⟩ => ⟨S3200x128, .f32⟩
  | .local _ .vmem, ⟨9, _⟩ => ⟨S3200x128, .f32⟩
  | .local _ .vmem, ⟨10, _⟩ => ⟨S3200x128, .f32⟩
  | .local _ .vmem, ⟨11, _⟩ => ⟨S1x128, .f32⟩
  | .local _ .vmem, ⟨12, _⟩ => ⟨S3200x128, .f32⟩
  | .local _ .vmem, ⟨13, _⟩ => ⟨S3200x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c_1 : Ref sig .tc := ⟨.hbm, 16, rfl⟩
abbrev main_v8 : Ref sig .tc := ⟨.hbm, 17, rfl⟩
abbrev main_v9 : Ref sig .tc := ⟨.hbm, 18, rfl⟩
abbrev main_c_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_c_3 : Ref sig .tc := ⟨.hbm, 25, rfl⟩
abbrev main_v15 : Ref sig .tc := ⟨.hbm, 26, rfl⟩
abbrev main_v16 : Ref sig .tc := ⟨.hbm, 27, rfl⟩
abbrev main_c_4 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_5 : Ref sig .tc := ⟨.hbm, 40, rfl⟩
abbrev main_v27 : Ref sig .tc := ⟨.hbm, 41, rfl⟩
abbrev main_cst_6 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_7 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_8 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![200], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S3200x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S3200x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S3200x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S3200x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  inb_S1000x128_S1000x128_0_0 : ∀ a, (![0, 0] : Fin 2 → Nat) a + S1000x128.size a ≤ S1000x128.size a
  h_S1000x128 : 0 < S1000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  transposes_S128x128_p1_0_S128x128 : S128x128.Transposes [1, 0] S128x128
  bcast_S_S640000 : S_.BroadcastsInDim S640000 (![] : Fin 0 → Fin S640000.rank)
  bcast_S640000_S640000x1_0 : S640000.BroadcastsInDim S640000x1 (![0] : Fin 1 → Fin S640000x1.rank)
  shapeCasts_S1x1x128_S1x128 : S1x1x128.ShapeCasts S1x128
  inb_S3200x128_S3200x128_0_0 : ∀ a, (![0, 0] : Fin 2 → Nat) a + S3200x128.size a ≤ S3200x128.size a
  h_S3200x128 : 0 < S3200x128.numel
  shapeCasts_S3200x128_S3200x128 : S3200x128.ShapeCasts S3200x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S3200x128 : S1x128.Broadcasts S3200x128
  reduces_S3200x128_S3200 : S3200x128.Reduces [1] S3200
  shapeCasts_S3200_S3200x1 : S3200.ShapeCasts S3200x1
  broadcasts_S3200x1_S3200x128 : S3200x1.Broadcasts S3200x128
  bcast_S_S10000x128 : S_.BroadcastsInDim S10000x128 (![] : Fin 0 → Fin S10000x128.rank)
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x128_0_1 : S10000x1.BroadcastsInDim S10000x128 (![0, 1] : Fin 2 → Fin S10000x128.rank)
  shapeCasts_S1_S_ : S1.ShapeCasts S_
  dot_S1000x128_S128x128_S1000x128_1_0_0_1_n_n_wf : DotDims.WF S1000x128 S128x128 S1000x128 [1] [0] [0] [1] [] []
  gather_S10000x128_S640000x1_S640000x128_1_0_n_n_0_1_1128_wf : GatherDims.WF S10000x128 S640000x1 S640000x128 [1] [0] [] [0] [] 1 ![1, 128]
  scatter_S10000x128_S640000x1_S640000x128_1_0_0_1_wf : ScatterDims.WF S10000x128 S640000x1 S640000x128 [1] [0] [0] 1
  scatter_S10000_S640000x1_S640000_n_0_0_1_wf : ScatterDims.WF S10000 S640000x1 S640000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x128.size a ≤ S10000x128.size a
  hwx0_0 : ∀ i : grid0.Coords, EltTy.bits .f32 = 32 ∨ (Rect.block (s := S10000x128) S1000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x128.size a ≤ S10000x128.size a
  hwx0_2 : ∀ i : grid0.Coords, EltTy.bits .f32 = 32 ∨ (Rect.block (s := S10000x128) S1000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S3200x128.size a ≤ S640000x128.size a
  hwx1_0 : ∀ i : grid1.Coords, EltTy.bits .f32 = 32 ∨ (Rect.block (s := S640000x128) S3200x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S3200x128.size a ≤ S640000x128.size a
  hwx1_1 : ∀ i : grid1.Coords, EltTy.bits .f32 = 32 ∨ (Rect.block (s := S640000x128) S3200x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S3200x128.size a ≤ S640000x128.size a
  hwx1_2 : ∀ i : grid1.Coords, EltTy.bits .f32 = 32 ∨ (Rect.block (s := S640000x128) S3200x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S3200x128.size a ≤ S640000x128.size a
  hwx1_4 : ∀ i : grid1.Coords, EltTy.bits .f32 = 32 ∨ (Rect.block (s := S640000x128) S3200x128.size (cc1_transform_4 i) (hinb1_4 i)).WholeWords (EltTy.packing .f32)

variable [Facts₀]

def dot_S1000x128_S128x128_S1000x128_1_0_0_1_n_n : DotDims S1000x128 S128x128 S1000x128 where
  lhsContracting := [1]
  rhsContracting := [0]
  lhsNonContracting := [0]
  rhsNonContracting := [1]
  lhsBatch := []
  rhsBatch := []
  wf := dot_S1000x128_S128x128_S1000x128_1_0_0_1_n_n_wf
def gather_S10000x128_S640000x1_S640000x128_1_0_n_n_0_1_1128 : GatherDims S10000x128 S640000x1 S640000x128 where
  offsetDims := [1]
  collapsedSliceDims := [0]
  operandBatchingDims := []
  startIndicesBatchingDims := []
  startIndexMap := [0]
  indexVectorDim := 1
  sliceSizes := ![1, 128]
  wf := gather_S10000x128_S640000x1_S640000x128_1_0_n_n_0_1_1128_wf
def scatter_S10000x128_S640000x1_S640000x128_1_0_0_1 : ScatterDims S10000x128 S640000x1 S640000x128 where
  updateWindowDims := [1]
  insertedWindowDims := [0]
  scatterDimsToOperandDims := [0]
  indexVectorDim := 1
  wf := scatter_S10000x128_S640000x1_S640000x128_1_0_0_1_wf
def scatter_S10000_S640000x1_S640000_n_0_0_1 : ScatterDims S10000 S640000x1 S640000 where
  updateWindowDims := []
  insertedWindowDims := [0]
  scatterDimsToOperandDims := [0]
  indexVectorDim := 1
  wf := scatter_S10000_S640000x1_S640000_n_0_0_1_wf

abbrev win0_0 : Pipeline.Window sig grid0 :=
  Pipeline.Window.ofSpec (Memref.whole main_arg0) S1000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v7) S3200x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S3200x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v21) S3200x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v22) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v23) S3200x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S10000x128 : Shape := ⟨2, ![10000, 128]⟩
abbrev S128x128 : Shape := ⟨2, ![128, 128]⟩
abbrev S1x1x128 : Shape := ⟨3, ![1, 1, 128]⟩
abbrev S1 : Shape := ⟨1, ![1]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S128 : Shape := ⟨1, ![128]⟩
abbrev S1x128 : Shape := ⟨2, ![1, 128]⟩
abbrev S10000 : Shape := ⟨1, ![10000]⟩
abbrev S10000x1 : Shape := ⟨2, ![10000, 1]⟩

abbrev nBuf : Space → Nat
  | .hbm => 95
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S128x128, .f32⟩
  | .hbm, ⟨2, _⟩ => ⟨S1x1x128, .f32⟩
  | .hbm, ⟨3, _⟩ => ⟨S1, .f32⟩
  | .hbm, ⟨4, _⟩ => ⟨S640000, .i32⟩
  | .hbm, ⟨5, _⟩ => ⟨S640000, .i32⟩
  | .hbm, ⟨6, _⟩ => ⟨S128x128, .f32⟩
  | .hbm, ⟨7, _⟩ => ⟨S10000x128, .f32⟩
  | .hbm, ⟨8, _⟩ => ⟨S_, .i32⟩
  | .hbm, ⟨9, _⟩ => ⟨S640000, .i32⟩
  | .hbm, ⟨10, _⟩ => ⟨S640000, .i1⟩
  | .hbm, ⟨11, _⟩ => ⟨S_, .i32⟩
  | .hbm, ⟨12, _⟩ => ⟨S640000, .i32⟩
  | .hbm, ⟨13, _⟩ => ⟨S640000, .i32⟩
  | .hbm, ⟨14, _⟩ => ⟨S640000, .i32⟩
  | .hbm, ⟨15, _⟩ => ⟨S640000x1, .i32⟩
  | .hbm, ⟨16, _⟩ => ⟨S640000x128, .f32⟩
  | .hbm, ⟨17, _⟩ => ⟨S_, .i32⟩
  | .hbm, ⟨18, _⟩ => ⟨S640000, .i32⟩
  | .hbm, ⟨19, _⟩ => ⟨S640000, .i1⟩
  | .hbm, ⟨20, _⟩ => ⟨S_, .i32⟩
  | .hbm, ⟨21, _⟩ => ⟨S640000, .i32⟩
  | .hbm, ⟨22, _⟩ => ⟨S640000, .i32⟩
  | .hbm, ⟨23, _⟩ => ⟨S640000, .i32⟩
  | .hbm, ⟨24, _⟩ => ⟨S640000x1, .i32⟩
  | .hbm, ⟨25, _⟩ => ⟨S640000x128, .f32⟩
  | .hbm, ⟨26, _⟩ => ⟨S128, .f32⟩
  | .hbm, ⟨27, _⟩ => ⟨S640000x128, .f32⟩
  | .hbm, ⟨28, _⟩ => ⟨S_, .f32⟩
  | .hbm, ⟨29, _⟩ => ⟨S_, .f32⟩
  | .hbm, ⟨30, _⟩ => ⟨S640000x128, .f32⟩
  | .hbm, ⟨31, _⟩ => ⟨S640000x128, .i1⟩
  | .hbm, ⟨32, _⟩ => ⟨S_, .f32⟩
  | .hbm, ⟨33, _⟩ => ⟨S640000x128, .f32⟩
  | .hbm, ⟨34, _⟩ => ⟨S640000x128, .f32⟩
  | .hbm, ⟨35, _⟩ => ⟨S640000x128, .f32⟩
  | .hbm, ⟨36, _⟩ => ⟨S1x128, .f32⟩
  | .hbm, ⟨37, _⟩ => ⟨S640000x128, .f32⟩
  | .hbm, ⟨38, _⟩ => ⟨S640000x128, .f32⟩
  | .hbm, ⟨39, _⟩ => ⟨S_, .f32⟩
  | .hbm, ⟨40, _⟩ => ⟨S640000, .f32⟩
  | .hbm, ⟨41, _⟩ => ⟨S640000x128, .f32⟩
  | .hbm, ⟨42, _⟩ => ⟨S_, .f32⟩
  | .hbm, ⟨43, _⟩ => ⟨S640000, .f32⟩
  | .hbm, ⟨44, _⟩ => ⟨S640000, .f32⟩
  | .hbm, ⟨45, _⟩ => ⟨S640000, .f32⟩
  | .hbm, ⟨46, _⟩ => ⟨S_, .f32⟩
  | .hbm, ⟨47, _⟩ => ⟨S640000, .f32⟩
  | .hbm, ⟨48, _⟩ => ⟨S640000, .f32⟩
  | .hbm, ⟨49, _⟩ => ⟨S_, .f32⟩
  | .hbm, ⟨50, _⟩ => ⟨S640000, .f32⟩
  | .hbm, ⟨51, _⟩ => ⟨S640000, .f32⟩
  | .hbm, ⟨52, _⟩ => ⟨S640000, .f32⟩
  | .hbm, ⟨53, _⟩ => ⟨S640000, .f32⟩
  | .hbm, ⟨54, _⟩ => ⟨S640000, .f32⟩
  | .hbm, ⟨55, _⟩ => ⟨S_, .f32⟩
  | .hbm, ⟨56, _⟩ => ⟨S640000, .f32⟩
  | .hbm, ⟨57, _⟩ => ⟨S640000, .f32⟩
  | .hbm, ⟨58, _⟩ => ⟨S_, .f32⟩
  | .hbm, ⟨59, _⟩ => ⟨S640000, .f32⟩
  | .hbm, ⟨60, _⟩ => ⟨S640000, .f32⟩
  | .hbm, ⟨61, _⟩ => ⟨S_, .i32⟩
  | .hbm, ⟨62, _⟩ => ⟨S640000, .i32⟩
  | .hbm, ⟨63, _⟩ => ⟨S640000, .i1⟩
  | .hbm, ⟨64, _⟩ => ⟨S_, .i32⟩
  | .hbm, ⟨65, _⟩ => ⟨S640000, .i32⟩
  | .hbm, ⟨66, _⟩ => ⟨S640000, .i32⟩
  | .hbm, ⟨67, _⟩ => ⟨S640000, .i32⟩
  | .hbm, ⟨68, _⟩ => ⟨S640000x1, .i32⟩
  | .hbm, ⟨69, _⟩ => ⟨S640000x128, .f32⟩
  | .hbm, ⟨70, _⟩ => ⟨S640000x1, .f32⟩
  | .hbm, ⟨71, _⟩ => ⟨S640000x128, .f32⟩
  | .hbm, ⟨72, _⟩ => ⟨S640000x128, .f32⟩
  | .hbm, ⟨73, _⟩ => ⟨S_, .f32⟩
  | .hbm, ⟨74, _⟩ => ⟨S10000x128, .f32⟩
  | .hbm, ⟨75, _⟩ => ⟨S640000x1, .i32⟩
  | .hbm, ⟨76, _⟩ => ⟨S10000x128, .f32⟩
  | .hbm, ⟨77, _⟩ => ⟨S_, .f32⟩
  | .hbm, ⟨78, _⟩ => ⟨S640000, .f32⟩
  | .hbm, ⟨79, _⟩ => ⟨S_, .f32⟩
  | .hbm, ⟨80, _⟩ => ⟨S10000, .f32⟩
  | .hbm, ⟨81, _⟩ => ⟨S640000x1, .i32⟩
  | .hbm, ⟨82, _⟩ => ⟨S10000, .f32⟩
  | .hbm, ⟨83, _⟩ => ⟨S_, .f32⟩
  | .hbm, ⟨84, _⟩ => ⟨S10000, .f32⟩
  | .hbm, ⟨85, _⟩ => ⟨S10000, .f32⟩
  | .hbm, ⟨86, _⟩ => ⟨S10000x1, .f32⟩
  | .hbm, ⟨87, _⟩ => ⟨S10000x128, .f32⟩
  | .hbm, ⟨88, _⟩ => ⟨S10000x128, .f32⟩
  | .hbm, ⟨89, _⟩ => ⟨S_, .f32⟩
  | .hbm, ⟨90, _⟩ => ⟨S_, .f32⟩
  | .hbm, ⟨91, _⟩ => ⟨S_, .f32⟩
  | .hbm, ⟨92, _⟩ => ⟨S10000x128, .f32⟩
  | .hbm, ⟨93, _⟩ => ⟨S10000x128, .f32⟩
  | .hbm, ⟨94, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_c_1 : Ref sig .tc := ⟨.hbm, 17, rfl⟩
abbrev main_v9 : Ref sig .tc := ⟨.hbm, 18, rfl⟩
abbrev main_v10 : Ref sig .tc := ⟨.hbm, 19, rfl⟩
abbrev main_c_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst : Ref sig .tc := ⟨.hbm, 28, rfl⟩
abbrev main_call0_cst : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_call0_v3 : Ref sig .tc := ⟨.hbm, 33, rfl⟩
abbrev main_call0_v4 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst_3 : Ref sig .tc := ⟨.hbm, 39, rfl⟩
abbrev main_v22 : Ref sig .tc := ⟨.hbm, 40, rfl⟩
abbrev main_v23 : Ref sig .tc := ⟨.hbm, 41, rfl⟩
abbrev main_cst_4 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_cst_5 : Ref sig .tc := ⟨.hbm, 46, rfl⟩
abbrev main_v27 : Ref sig .tc := ⟨.hbm, 47, rfl⟩
abbrev main_v28 : Ref sig .tc := ⟨.hbm, 48, rfl⟩
abbrev main_cst_6 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_cst_7 : Ref sig .tc := ⟨.hbm, 55, rfl⟩
abbrev main_v34 : Ref sig .tc := ⟨.hbm, 56, rfl⟩
abbrev main_v35 : Ref sig .tc := ⟨.hbm, 57, rfl⟩
abbrev main_cst_8 : Ref sig .tc := ⟨.hbm, 58, rfl⟩
abbrev main_v36 : Ref sig .tc := ⟨.hbm, 59, rfl⟩
abbrev main_v37 : Ref sig .tc := ⟨.hbm, 60, rfl⟩
abbrev main_c_9 : Ref sig .tc := ⟨.hbm, 61, rfl⟩
abbrev main_v38 : Ref sig .tc := ⟨.hbm, 62, rfl⟩
abbrev main_v39 : Ref sig .tc := ⟨.hbm, 63, rfl⟩
abbrev main_c_10 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_cst_11 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_cst_12 : Ref sig .tc := ⟨.hbm, 77, rfl⟩
abbrev main_v51 : Ref sig .tc := ⟨.hbm, 78, rfl⟩
abbrev main_cst_13 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_cst_14 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_cst_15 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩

abbrev nD : Nat := 1
abbrev τ : Topo := Topo.v7x

variable {F : FTy → Type} [FloatOps F]

class Facts₀ : Prop where
  transposes_S128x128_S128x128_1_0 : S128x128.Transposes [1, 0] S128x128
  bcast_S_S640000 : S_.BroadcastsInDim S640000 (![] : Fin 0 → Fin S640000.rank)
  bcast_S640000_S640000x1_0 : S640000.BroadcastsInDim S640000x1 (![0] : Fin 1 → Fin S640000x1.rank)
  shapeCasts_S1x1x128_S128 : S1x1x128.ShapeCasts S128
  bcast_S_S640000x128 : S_.BroadcastsInDim S640000x128 (![] : Fin 0 → Fin S640000x128.rank)
  bcast_S128_S1x128_1 : S128.BroadcastsInDim S1x128 (![1] : Fin 1 → Fin S1x128.rank)
  bcast_S1x128_S640000x128_0_1 : S1x128.BroadcastsInDim S640000x128 (![0, 1] : Fin 2 → Fin S640000x128.rank)
  reducesTo_S640000x128_S640000_d1 : S640000x128.ReducesTo [1] S640000
  h_S_ : 0 < S_.numel
  bcast_S640000x1_S640000x128_0_1 : S640000x1.BroadcastsInDim S640000x128 (![0, 1] : Fin 2 → Fin S640000x128.rank)
  bcast_S_S10000x128 : S_.BroadcastsInDim S10000x128 (![] : Fin 0 → Fin S10000x128.rank)
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x128_0_1 : S10000x1.BroadcastsInDim S10000x128 (![0, 1] : Fin 2 → Fin S10000x128.rank)
  shapeCasts_S1_S_ : S1.ShapeCasts S_
  dot_S10000x128_S128x128_S10000x128_1_0_0_1_n_n_wf : DotDims.WF S10000x128 S128x128 S10000x128 [1] [0] [0] [1] [] []
  gather_S10000x128_S640000x1_S640000x128_1_0_n_n_0_1_1128_wf : GatherDims.WF S10000x128 S640000x1 S640000x128 [1] [0] [] [0] [] 1 ![1, 128]
  scatter_S10000x128_S640000x1_S640000x128_1_0_0_1_wf : ScatterDims.WF S10000x128 S640000x1 S640000x128 [1] [0] [0] 1
  scatter_S10000_S640000x1_S640000_n_0_0_1_wf : ScatterDims.WF S10000 S640000x1 S640000 [] [0] [0] 1

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S10000x128_S640000x1_S640000x128_1_0_n_n_0_1_1128 : GatherDims S10000x128 S640000x1 S640000x128 where
  offsetDims := [1]
  collapsedSliceDims := [0]
  operandBatchingDims := []
  startIndicesBatchingDims := []
  startIndexMap := [0]
  indexVectorDim := 1
  sliceSizes := ![1, 128]
  wf := gather_S10000x128_S640000x1_S640000x128_1_0_n_n_0_1_1128_wf
def scatter_S10000x128_S640000x1_S640000x128_1_0_0_1 : ScatterDims S10000x128 S640000x1 S640000x128 where
  updateWindowDims := [1]
  insertedWindowDims := [0]
  scatterDimsToOperandDims := [0]
  indexVectorDim := 1
  wf := scatter_S10000x128_S640000x1_S640000x128_1_0_0_1_wf
def scatter_S10000_S640000x1_S640000_n_0_0_1 : ScatterDims S10000 S640000x1 S640000 where
  updateWindowDims := []
  insertedWindowDims := [0]
  scatterDimsToOperandDims := [0]
  indexVectorDim := 1
  wf := scatter_S10000_S640000x1_S640000_n_0_0_1_wf

class Facts : Prop extends Facts₀ where

variable [Facts]
-- ==== Proof.KernelHost.lean ====
/-
  The host side of the kernel's program, read: what the operations between the two regions put into the second region's
  four input arrays (the rows of the projection and of the raw features gathered at the wrapped edge ends, the attention
  vector as one row), and what the closing stretch makes of the message array (sum into node rows at the edge ends, mean by
  the clamped in-degree, node update). The arguments reach every boundary unchanged.
-/
import proofs.«134800_j20641612824581_1_alg».proof.Proof.KernelRun
import Idealize.ShloMosaic.Lib.StableHlo.Run

set_option maxRecDepth 16384

noncomputable section

namespace Cert.KernelIdeal.Hand

open Idealize.ShloMosaic Idealize.ShloMosaic.TcCoe Idealize.SL.Sem
open Idealize.ShloMosaic.Pipeline (Dat)
open Cert.KernelIdeal Cert.KernelIdeal.Gen

variable {F : FTy → Type} [FloatOps F]

/-- An edge end as a gather index: a negative end wraps by the node count; the column axis of the index table added. -/
def idx (a : IVec S640000 32) : IVec S640000x1 32 :=
  broadcastInDim S640000x1 ![0] bcast_S640000_S640000x1_0
    (select (cmpi .slt a (broadcastInDim S640000 ![] bcast_S_S640000 (constantI S_ 32 0#32)))
      (addi a (broadcastInDim S640000 ![] bcast_S_S640000 (constantI S_ 32 10000#32))) a)

/-- The rows of a node array at the edge ends. -/
def rows (p : FVec F S10000x128 .f32) (a : IVec S640000 32) : FVec F S640000x128 .f32 :=
  Host.gather gather_S10000x128_S640000x1_S640000x128_1_0_n_n_0_1_1128 p (idx a)

/-- The attention vector as one row. -/
def attnRow (a : FVec F S1x1x128 .f32) : FVec F S1x128 .f32 := fun i => shapeCast S1x128 a shapeCasts_S1x1x128_S1x128 i

/-- The closing stretch: messages summed into node rows at the edge ends, divided by the in-degree clamped at one, added
    to the features scaled by one plus the scalar. -/
def tail (ms : FVec F S640000x128 .f32) (a5 : IVec S640000 32) (a3 : FVec F S1 .f32) (a0 : FVec F S10000x128 .f32) : FVec F S10000x128 .f32 :=
  addf (mulf (broadcastInDim S10000x128 ![] bcast_S_S10000x128 (addf (constant S_ .f32 0x3F800000#32) (fun i => shapeCast S_ a3 shapeCasts_S1_S_ i))) a0)
    (Host.divf
      (Host.scatterAdd scatter_S10000x128_S640000x1_S640000x128_1_0_0_1
        (broadcastInDim S10000x128 ![] bcast_S_S10000x128 (constant S_ .f32 0x00000000#32))
        (broadcastInDim S640000x1 ![0] bcast_S640000_S640000x1_0 a5) ms)
      (broadcastInDim S10000x128 ![0, 1] bcast_S10000x1_S10000x128_0_1 (broadcastInDim S10000x1 ![0] bcast_S10000_S10000x1_0
        (maximumf
          (Host.scatterAdd scatter_S10000_S640000x1_S640000_n_0_0_1
            (broadcastInDim S10000 ![] bcast_S_S10000 (constant S_ .f32 0x00000000#32))
            (broadcastInDim S640000x1 ![0] bcast_S640000_S640000x1_0 a5)
            (broadcastInDim S640000 ![] bcast_S_S640000 (constant S_ .f32 0x3F800000#32)))
          (broadcastInDim S10000 ![] bcast_S_S10000 (constant S_ .f32 0x3F800000#32))))))

variable (m : (ℓ : Loc nD τ sig) → Buf (Elt F) ℓ) (ρ : Dev nD → PrngReg)

/-! ## The first region's exit -/

/-- The projection's array after the first region: what its ten write-backs leave. -/
abbrev projArr (c : Dev nD) : FVec F S10000x128 .f32 := (dat0 (V0 m ρ) c).arrAt 2 cfg0.N

theorem W1_v0 (c : Dev nD) : W1 m ρ c (Proc.devRef .tc main_v0) = projArr m ρ c := W1_arr m ρ c 2
theorem W1_arg0 (c : Dev nD) : W1 m ρ c (Proc.devRef .tc main_arg0) = m ((c : Thread nD τ).loc main_arg0) :=
  ((W1_arr m ρ c 0).trans (((dat0 (V0 m ρ) c).arrAt_in 0 rfl _).trans (A_eq0 (V0 m ρ) c 0))).trans rfl
theorem W1_arg2 (c : Dev nD) : W1 m ρ c (Proc.devRef .tc main_arg2) = m ((c : Thread nD τ).loc main_arg2) :=
  (W1_of_ne m ρ c main_arg2 (by decide)).trans rfl
theorem W1_arg3 (c : Dev nD) : W1 m ρ c (Proc.devRef .tc main_arg3) = m ((c : Thread nD τ).loc main_arg3) :=
  (W1_of_ne m ρ c main_arg3 (by decide)).trans rfl
theorem W1_arg4 (c : Dev nD) : W1 m ρ c (Proc.devRef .tc main_arg4) = m ((c : Thread nD τ).loc main_arg4) :=
  (W1_of_ne m ρ c main_arg4 (by decide)).trans rfl
theorem W1_arg5 (c : Dev nD) : W1 m ρ c (Proc.devRef .tc main_arg5) = m ((c : Thread nD τ).loc main_arg5) :=
  (W1_of_ne m ρ c main_arg5 (by decide)).trans rfl

/-! ## The second region's entry -/

theorem V2_v7 (c : Dev nD) : V2 m ρ c main_v7 = rows (projArr m ρ c) (m ((c : Thread nD τ).loc main_arg4)) := by
  rw [← W1_v0 m ρ c, ← W1_arg4 m ρ c]
  show StableHlo.after hostOps1 (W1 m ρ c) (Proc.devRef .tc main_v7) = _
  after_results
  rfl
theorem V2_v14 (c : Dev nD) : V2 m ρ c main_v14 = rows (projArr m ρ c) (m ((c : Thread nD τ).loc main_arg5)) := by
  rw [← W1_v0 m ρ c, ← W1_arg5 m ρ c]
  show StableHlo.after hostOps1 (W1 m ρ c) (Proc.devRef .tc main_v14) = _
  after_results
  rfl
set_option maxHeartbeats 2000000 in
theorem V2_v21 (c : Dev nD) : V2 m ρ c main_v21 = rows (m ((c : Thread nD τ).loc main_arg0)) (m ((c : Thread nD τ).loc main_arg4)) := by
  rw [← W1_arg0 m ρ c, ← W1_arg4 m ρ c]
  show StableHlo.after hostOps1 (W1 m ρ c) (Proc.devRef .tc main_v21) = _
  after_results_simp
  rfl
theorem V2_v22 (c : Dev nD) : V2 m ρ c main_v22 = attnRow (m ((c : Thread nD τ).loc main_arg2)) := by
  rw [← W1_arg2 m ρ c]
  show StableHlo.after hostOps1 (W1 m ρ c) (Proc.devRef .tc main_v22) = _
  after_results
  rfl
theorem W2_arg0 (c : Dev nD) : W2 m ρ c (Proc.devRef .tc main_arg0) = m ((c : Thread nD τ).loc main_arg0) := by
  rw [← W1_arg0 m ρ c]
  show StableHlo.after hostOps1 (W1 m ρ c) (Proc.devRef .tc main_arg0) = _
  after_results
theorem W2_arg3 (c : Dev nD) : W2 m ρ c (Proc.devRef .tc main_arg3) = m ((c : Thread nD τ).loc main_arg3) := by
  rw [← W1_arg3 m ρ c]
  show StableHlo.after hostOps1 (W1 m ρ c) (Proc.devRef .tc main_arg3) = _
  after_results
theorem W2_arg5 (c : Dev nD) : W2 m ρ c (Proc.devRef .tc main_arg5) = m ((c : Thread nD τ).loc main_arg5) := by
  rw [← W1_arg5 m ρ c]
  show StableHlo.after hostOps1 (W1 m ρ c) (Proc.devRef .tc main_arg5) = _
  after_results

/-! ## The second region's exit and the closing stretch -/

/-- The message array after the second region: what its two hundred write-backs leave. -/
abbrev msgArr (c : Dev nD) : FVec F S640000x128 .f32 := (dat1 (V2 m ρ) c).arrAt 4 cfg1.N

theorem W3_v23 (c : Dev nD) : W3 m ρ c (Proc.devRef .tc main_v23) = msgArr m ρ c := W3_arr m ρ c 4
theorem W3_arg0 (c : Dev nD) : W3 m ρ c (Proc.devRef .tc main_arg0) = m ((c : Thread nD τ).loc main_arg0) :=
  (W3_of_ne m ρ c main_arg0 (by decide)).trans (W2_arg0 m ρ c)
theorem W3_arg3 (c : Dev nD) : W3 m ρ c (Proc.devRef .tc main_arg3) = m ((c : Thread nD τ).loc main_arg3) :=
  (W3_of_ne m ρ c main_arg3 (by decide)).trans (W2_arg3 m ρ c)
theorem W3_arg5 (c : Dev nD) : W3 m ρ c (Proc.devRef .tc main_arg5) = m ((c : Thread nD τ).loc main_arg5) :=
  (W3_of_ne m ρ c main_arg5 (by decide)).trans (W2_arg5 m ρ c)

set_option maxHeartbeats 2000000 in
/-- The result buffer after the last host operation: the closing stretch of the message array and three arguments. -/
theorem W4_v40 (c : Dev nD) : W4 m ρ c (Proc.devRef .tc main_v40)
    = tail (msgArr m ρ c) (m ((c : Thread nD τ).loc main_arg5)) (m ((c : Thread nD τ).loc main_arg3)) (m ((c : Thread nD τ).loc main_arg0)) := by
  rw [← W3_v23 m ρ c, ← W3_arg5 m ρ c, ← W3_arg3 m ρ c, ← W3_arg0 m ρ c]
  show StableHlo.after hostOps2 (W3 m ρ c) (Proc.devRef .tc main_v40) = _
  after_results_simp
  rfl

end Cert.KernelIdeal.Hand

end
-- ==== Proof.Spec.lean ====
/-
  The mathematics of the graph layer, index by index over the extended reals.

  * The projection: entry (r, c) is the sum over k of feature (r, k) times weight (c, k).
  * Each edge p has a weight: with u and v the projected rows at its two ends and a the attention vector,
    the logistic of (sum over k of slope(u k + v k) * a k) times the logistic of (sum over k of u k * v k), where slope keeps
    an entry that compares at least zero and scales any other by the slope constant.
  * The message of edge p on lane q is the raw source row's entry (p, q) times that weight.
-/
import Idealize.ShloMosaic.PureOps.Ideal
import Idealize.ShloMosaic.Lib.ValueIdx

noncomputable section

namespace Cert.Spec

open Idealize.ShloMosaic Idealize.ShloMosaic.ValueIdx

/-- The rectifier with slope on one extended real: the value where it compares at least the zero word's value, the slope
    word's value times it elsewhere. -/
def slope (s : EReal) : EReal :=
  Scalar.select (Ideal.cmp .oge s (Ideal.ofBits .f32 0x00000000#32)) s (Ideal.ofBits .f32 0x3E4CCCCD#32 * s)

/-- The projection of the node features by the transposed weight. -/
def projAt (x : (⟨2, ![10000, 128]⟩ : Shape).Idx → EReal) (w : (⟨2, ![128, 128]⟩ : Shape).Idx → EReal) :
    (⟨2, ![10000, 128]⟩ : Shape).Idx → EReal :=
  fun j => ∑ k : Fin 128, x (ix2 (j 0) k) * w (ix2 (j 1) k)

/-- The score of edge `p`: the slope-rectified sum of its ends' projected rows against the attention vector. -/
def score (el er : (⟨2, ![640000, 128]⟩ : Shape).Idx → EReal) (a : Fin 128 → EReal) (p : Fin 640000) : EReal :=
  ∑ k : Fin 128, slope (el (ix2 p k) + er (ix2 p k)) * a k

/-- The dot product of edge `p`'s two projected end rows. -/
def endsDot (el er : (⟨2, ![640000, 128]⟩ : Shape).Idx → EReal) (p : Fin 640000) : EReal :=
  ∑ k : Fin 128, el (ix2 p k) * er (ix2 p k)

/-- The weight of edge `p`. -/
def edgeWeight (el er : (⟨2, ![640000, 128]⟩ : Shape).Idx → EReal) (a : Fin 128 → EReal) (p : Fin 640000) : EReal :=
  Ideal.logistic (score el er a p * Ideal.logistic (endsDot el er p))

/-- The message array: the raw source row of each edge scaled by the edge's weight. -/
def msgAt (el er fs : (⟨2, ![640000, 128]⟩ : Shape).Idx → EReal) (a : Fin 128 → EReal) :
    (⟨2, ![640000, 128]⟩ : Shape).Idx → EReal :=
  fun j => fs j * edgeWeight el er a (j 0)

end Cert.Spec

end
-- ==== Proof.LibPlainDot.lean ====
/-
  A plain two-dimensional contraction (rows x inner times inner x columns, no batch axis) read at an index.
  At the extended reals the matrix unit's product into a zero accumulator and the host's dot product are both
  the sum, over the inner index k, of the left operand's entry (row, k) times the right operand's entry (k, column).
-/
import Idealize.ShloMosaic.Lib.ValueIdx
import Idealize.ShloMosaic.PureOps.Ideal.Laws
import Idealize.ShloMosaic.Lib.ValueLayout

noncomputable section

namespace Cert.PlainDot

open Idealize.ShloMosaic Idealize.ShloMosaic.ValueIdx

variable {M K N : Nat}

/-- The left operand is read on its row axis at the output's row. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand is read on its inner axis at the contraction index. -/
theorem lhs_inner (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q

/-- The right operand is read on its inner axis at the contraction index. -/
theorem rhs_inner (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q

/-- The right operand is read on its column axis at the output's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The contraction's sum re-indexed by the inner coordinate. -/
theorem sum_contr (A : (⟨2, ![M, K]⟩ : Shape).Idx → EReal) (B : (⟨2, ![K, N]⟩ : Shape).Idx → EReal)
    (j : (⟨2, ![M, N]⟩ : Shape).Idx) :
    (∑ q : (DotDims.plain M K N).contr.Idx, A ((DotDims.plain M K N).lhsIdx j q) * B ((DotDims.plain M K N).rhsIdx j q))
      = ∑ k : Fin K, A (ix2 (j 0) k) * B (ix2 k (j 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact lhs_row _ _
      | ⟨1, _⟩ => exact (lhs_inner _ _).trans hk)
  have er : (DotDims.plain M K N).rhsIdx j ((contrEquiv1 (DotDims.plain M K N) K rfl rfl).symm k) = ix2 k (j 1) :=
    funext fun a => Fin.ext (by
      match a with
      | ⟨0, _⟩ => exact (rhs_inner _ _).trans hk
      | ⟨1, _⟩ => exact rhs_col _ _)
  exact congrArg₂ (· * ·) (congrArg A el) (congrArg B er)

/-- The matrix unit's product into the zero accumulator, at an output index: the plain sum of products. -/
theorem matmul_zero_apply {φ₁ φ₂ : FTy} (prec : Option ContractPrecision)
    (A : FVec Ideal (⟨2, ![M, K]⟩ : Shape) φ₁) (B : FVec Ideal (⟨2, ![K, N]⟩ : Shape) φ₂) (j : (⟨2, ![M, N]⟩ : Shape).Idx) :
    FloatOps.matmul (DotDims.plain M K N) prec A B (constant (⟨2, ![M, N]⟩ : Shape) .f32 0x00000000#32) j
      = ∑ k : Fin K, A (ix2 (j 0) k) * B (ix2 k (j 1)) :=
  (Ideal.matmul_constant_zero_apply (DotDims.plain M K N) prec A B j).trans (sum_contr A B j)

/-- The host's dot product at an output index: the same sum. -/
theorem dotGeneral_apply {φ₁ φ₂ : FTy} (prec : Option ContractPrecision) (sched : HostSchedule)
    (A : FVec Ideal (⟨2, ![M, K]⟩ : Shape) φ₁) (B : FVec Ideal (⟨2, ![K, N]⟩ : Shape) φ₂) (j : (⟨2, ![M, N]⟩ : Shape).Idx) :
    FloatOps.dotGeneral (DotDims.plain M K N) prec sched A B j
      = ∑ k : Fin K, A (ix2 (j 0) k) * B (ix2 k (j 1)) :=
  (Ideal.dotGeneral_apply (DotDims.plain M K N) prec sched A B j).trans (sum_contr A B j)

/-! ## A matrix product with a row added to every row -/

/-- The matrix product of `A` and `B` with the one-row array `b` added to each of its rows: the entry at
    (r, c) is `∑ k, A (r, k) * B (k, c) + b (0, c)`. -/
def affine (A : (⟨2, ![M, K]⟩ : Shape).Idx → EReal) (B : (⟨2, ![K, N]⟩ : Shape).Idx → EReal)
    (b : (⟨2, ![1, N]⟩ : Shape).Idx → EReal) : (⟨2, ![M, N]⟩ : Shape).Idx → EReal :=
  fun j => (∑ k : Fin K, A (ix2 (j 0) k) * B (ix2 k (j 1))) + b (ix2 (0 : Fin 1) (j 1))

/-- The matrix unit's product into a zero accumulator plus a one-row array broadcast over the rows is `affine`. -/
theorem matmul_add_row_eq {φ₁ φ₂ : FTy} (prec : Option ContractPrecision)
    (A : FVec Ideal (⟨2, ![M, K]⟩ : Shape) φ₁) (B : FVec Ideal (⟨2, ![K, N]⟩ : Shape) φ₂)
    (b : FVec Ideal (⟨2, ![1, N]⟩ : Shape) .f32) (h : (⟨2, ![1, N]⟩ : Shape).Broadcasts ⟨2, ![M, N]⟩) :
    addf (matmul (DotDims.plain M K N) prec A B (constant (⟨2, ![M, N]⟩ : Shape) .f32 0x00000000#32))
        (broadcastTo (⟨2, ![M, N]⟩ : Shape) b h) = affine A B b := by
  funext j
  obtain ⟨p, q, rfl⟩ : ∃ (p : Fin M) (q : Fin N), j = ix2 p q := ⟨j 0, j 1, eq_ix2 j⟩
  show FloatOps.matmul (DotDims.plain M K N) prec A B (constant (⟨2, ![M, N]⟩ : Shape) .f32 0x00000000#32) (ix2 p q)
      + broadcastTo (⟨2, ![M, N]⟩ : Shape) b h (ix2 p q) = _
  rw [matmul_zero_apply, broadcastTo_1b_ab_apply]
  rfl

/-- `affine` followed by the rectifier: each entry's maximum with the value of the zero word. -/
def affineRelu (A : (⟨2, ![M, K]⟩ : Shape).Idx → EReal) (B : (⟨2, ![K, N]⟩ : Shape).Idx → EReal)
    (b : (⟨2, ![1, N]⟩ : Shape).Idx → EReal) : (⟨2, ![M, N]⟩ : Shape).Idx → EReal :=
  fun j => max (affine A B b j) (Ideal.ofBits .f32 0x00000000#32)

/-- The same product and row, then the entrywise maximum with a splat of the zero word, is `affineRelu`. -/
theorem matmul_add_row_max_eq {φ₁ φ₂ : FTy} (prec : Option ContractPrecision)
    (A : FVec Ideal (⟨2, ![M, K]⟩ : Shape) φ₁) (B : FVec Ideal (⟨2, ![K, N]⟩ : Shape) φ₂)
    (b : FVec Ideal (⟨2, ![1, N]⟩ : Shape) .f32) (h : (⟨2, ![1, N]⟩ : Shape).Broadcasts ⟨2, ![M, N]⟩) :
    maximumf (addf (matmul (DotDims.plain M K N) prec A B (constant (⟨2, ![M, N]⟩ : Shape) .f32 0x00000000#32))
        (broadcastTo (⟨2, ![M, N]⟩ : Shape) b h))
      (broadcast (⟨2, ![M, N]⟩ : Shape) (Scalar.ofBits (F := Ideal) .f32 0x00000000#32)) = affineRelu A B b := by
  rw [matmul_add_row_eq]
  rfl

end Cert.PlainDot

end
-- ==== Proof.ProjCover.lean ====
/-
  The first region, read at the extended reals: its output array after the ten grid points is the projection of the
  node features by the transposed weight, index by index.

  At grid point t the body multiplies the features' rows 1000 t … 1000 t + 999 (all 128 lanes) into the transposed weight
  (the whole 128 x 128 array at every point) on the matrix unit with a zero accumulator; narrowing the operands to
  bf16 is the identity at the extended reals, so entry (p, q) of the block is the sum over k of feature (1000 t + p, k) times
  weight (q, k). The point writes that block back at rows 1000 t … of the output, and the ten blocks tile it.
-/
import proofs.«134800_j20641612824581_1_alg».proof.Proof.Gen.KernelIdeal.Frame
import proofs.«134800_j20641612824581_1_alg».proof.Proof.Spec
import proofs.«134800_j20641612824581_1_alg».proof.Proof.LibPlainDot
import Idealize.ShloMosaic.Lib.Pipeline.Value
import Idealize.ShloMosaic.Lib.ValueLayout

set_option maxRecDepth 16384

noncomputable section

namespace Cert.KernelIdeal.Hand

open Idealize.ShloMosaic Idealize.ShloMosaic.TcCoe Idealize.ShloMosaic.ValueIdx Idealize.SL.Sem
open Idealize.ShloMosaic.Pipeline (Dat)
open Cert.KernelIdeal Cert.KernelIdeal.Gen

theorem hz2 : (![0, 0] : Fin 2 → Nat) = fun _ => 0 := funext fun a => by fin_cases a <;> rfl

/-- The body's product at entry (p, q): the sum over the inner index of the left block's (p, k) times the right block's
    (q, k) (the right operand is transposed before the product). -/
theorem projPay_apply (x0 : FVec Ideal S1000x128 .f32) (x1 : FVec Ideal S128x128 .f32) (p : Fin 1000) (q : Fin 128) :
    k0_pay1 (F := Ideal) x0 x1 (ix2 p q) = ∑ k : Fin 128, x0 (ix2 p k) * x1 (ix2 q k) := by
  unfold k0_pay1
  refine (Cert.PlainDot.matmul_zero_apply (M := 1000) (K := 128) (N := 128) none _ _ (ix2 p q)).trans ?_
  refine Finset.sum_congr rfl fun k _ => ?_
  exact congrArg₂ (· * ·) rfl (transpose_ix2_apply _ _ k q)

/-- The printed index maps over the grid: the feature and output windows move one block of rows per point, the weight's
    stays. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

variable (V : (c : Dev nD) → (b : Ref sig .tc) → Buf (Elt Ideal) ((c : Thread nD τ).loc b))

/-- The features' block at point t is rows 1000 t … of the features. -/
theorem featBlock_apply (c : Dev nD) (t : Fin cfg0.N) (y : S1000x128.Idx) (i : S10000x128.Idx)
    (h0 : (i 0).val = t.val * 1000 + (y 0).val) (h1 : (i 1).val = (y 1).val) :
    (iblk0 V c 0 t : Vec Ideal S1000x128 .f32) y = (V c main_arg0 : S10000x128.Idx → EReal) i := by
  obtain ⟨e0, e1, -⟩ := idx0 t
  unfold iblk0
  rw [View.read_apply]
  show V c main_arg0 _ = V c main_arg0 _
  congr 1
  funext a
  apply Fin.ext
  match a with
  | ⟨0, _⟩ => show win0_0.index t (0 : Fin 2) * 1000 + 1 * (y 0).val = (i 0).val; rw [e0, h0]; omega
  | ⟨1, _⟩ => show win0_0.index t (1 : Fin 2) * 128 + 1 * (y 1).val = (i 1).val; rw [e1, h1]; omega

/-- The weight's block at every point is the whole weight. -/
theorem weightBlock_apply (c : Dev nD) (t : Fin cfg0.N) (y : S128x128.Idx) :
    (iblk0 V c 1 t : Vec Ideal S128x128 .f32) y = (V c main_arg1 : S128x128.Idx → EReal) y := by
  obtain ⟨-, -, e0, e1, -⟩ := idx0 t
  unfold iblk0
  rw [View.read_apply]
  show V c main_arg1 _ = V c main_arg1 _
  congr 1
  funext a
  apply Fin.ext
  match a with
  | ⟨0, _⟩ => show win0_1.index t (0 : Fin 2) * 128 + 1 * (y 0).val = (y 0).val; rw [e0]; omega
  | ⟨1, _⟩ => show win0_1.index t (1 : Fin 2) * 128 + 1 * (y 1).val = (y 1).val; rw [e1]; omega

/-- The body's block at point t, read at an index of the block, is the projection at the array index that row and lane
    name. -/
theorem projBlock_eq (c : Dev nD) (t : Fin cfg0.N) (y : S1000x128.Idx) (i : S10000x128.Idx)
    (h0 : (i 0).val = t.val * 1000 + (y 0).val) (h1 : (i 1).val = (y 1).val) :
    k0_pay1 (F := Ideal) (iblk0 V c 0 t) (iblk0 V c 1 t) y = Cert.Spec.projAt (V c main_arg0) (V c main_arg1) i := by
  obtain ⟨p, q, rfl⟩ : ∃ (p : Fin 1000) (q : Fin 128), y = ix2 p q := ⟨y 0, y 1, eq_ix2 y⟩
  refine (projPay_apply (iblk0 V c 0 t) (iblk0 V c 1 t) p q).trans ?_
  unfold Cert.Spec.projAt
  refine Finset.sum_congr rfl fun k _ => ?_
  refine congrArg₂ (· * ·) (featBlock_apply V c t (ix2 p k) (ix2 (i 0) k) h0 rfl) ((weightBlock_apply V c t (ix2 q k)).trans ?_)
  congr 1
  funext a
  apply Fin.ext
  match a with
  | ⟨0, _⟩ => exact h1.symm
  | ⟨1, _⟩ => rfl

/-- What point t writes back is block t of the projection. -/
theorem proj_flushed (c : Dev nD) (t : Fin cfg0.N) :
    (dat0 V c).flushed 2 t = ((cfg0.win 2).blk t).view.read (Elt Ideal) (Cert.Spec.projAt (V c main_arg0) (V c main_arg1)) := by
  show (cfg0.win 2).cut (grid0.coords t) ((dat0 V c).after 2 t) = _
  rw [after0_2]
  unfold out0_2
  rw [View.canon_unit_zero hz2]
  simp only [View.ld_unit_zero (S := S1000x128) hz2, View.ld_unit_zero (S := S128x128) hz2]
  obtain ⟨-, -, -, -, e0, e1⟩ := idx0 t
  funext y
  show k0_pay1 (F := Ideal) (iblk0 V c 0 t) (iblk0 V c 1 t) y
    = Cert.Spec.projAt (V c main_arg0) (V c main_arg1) (((cfg0.win 2).blk t).view.emb y)
  refine projBlock_eq V c t y _ ?_ ?_
  · show win0_2.index t (0 : Fin 2) * 1000 + 1 * (y 0).val = t.val * 1000 + (y 0).val
    rw [e0]; omega
  · show win0_2.index t (1 : Fin 2) * 128 + 1 * (y 1).val = (y 1).val
    rw [e1]; omega

/-- An index of the output is in point t's block iff each coordinate is in the block's range on its axis. -/
theorem proj_mem_blk (t : Fin cfg0.N) (i : S10000x128.Idx) :
    i ∈ ((cfg0.win 2).blk t).view.set ↔ ∀ a : Fin 2, win0_2.index t a * S1000x128.size a ≤ (i a).val ∧ (i a).val < win0_2.index t a * S1000x128.size a + S1000x128.size a := by
  show i ∈ ((View.whole main_v0).slice (win0_2.rect t)).set ↔ _
  rw [View.set_slice_whole, Rect.mem_set_unit]
  exact Iff.rfl

/-- After the region the output array is the projection: row r is written by point r / 1000. -/
theorem proj_final (c : Dev nD) : (dat0 V c).arrAt 2 cfg0.N = Cert.Spec.projAt (V c main_arg0) (V c main_arg1) :=
  (dat0 V c).arrAt_eq_of_cover 2 _ (fun t _ => proj_flushed V c t) fun i => by
    have hi0 : (i 0).val < 10000 := idx2_lt0 i
    have hi1 : (i 1).val < 128 := idx2_lt1 i
    refine ⟨⟨(i 0).val / 1000, by rw [show cfg0.N = 10 from N_0]; omega⟩, flush0_2 _, ?_⟩
    rw [proj_mem_blk]
    obtain ⟨-, -, -, -, e0, e1⟩ := idx0 ⟨(i 0).val / 1000, by rw [show cfg0.N = 10 from N_0]; omega⟩
    intro a
    match a with
    | ⟨0, _⟩ =>
      show win0_2.index _ (0 : Fin 2) * 1000 ≤ (i 0).val ∧ (i 0).val < win0_2.index _ (0 : Fin 2) * 1000 + 1000
      rw [e0]; show (i 0).val / 1000 * 1000 ≤ (i 0).val ∧ (i 0).val < (i 0).val / 1000 * 1000 + 1000; omega
    | ⟨1, _⟩ =>
      show win0_2.index _ (1 : Fin 2) * 128 ≤ (i 1).val ∧ (i 1).val < win0_2.index _ (1 : Fin 2) * 128 + 128
      rw [e1]; omega

end Cert.KernelIdeal.Hand

end
-- ==== Proof.LibKeepdims.lean ====
/-
  Reading at an index, over the extended reals or any element type: a row sum (the vector unit's and the host's), a
  vector made a column and a column laid over the lanes (the keepdims forms), the host's broadcasts along an added or a
  unit axis, a scalar's broadcast, and a [1, 1, b] array flattened to a vector or a row. Each lemma is generic in the
  extents; indices are written with the literal-size constructors, so that a lemma applies by unification.
-/
import Idealize.ShloMosaic.Lib.ValueLayout
import Idealize.ShloMosaic.PureOps.Ideal.Laws

noncomputable section

namespace Cert.Keepdims

open Idealize.ShloMosaic Idealize.ShloMosaic.ValueIdx

variable {α : Type}

/-! ## Row sums -/

/-- The index of a matrix over row `p` with the lane `k` inserted is `(p, k)`. -/
theorem lift_row {a b : ℕ} (h : (⟨2, ![a, b]⟩ : Shape).Reduces [1] ⟨1, ![a]⟩) (p : Fin a) (k : Fin b) :
    h.lift (ix1 p) k = ix2 p k :=
  funext fun c => Fin.ext (by
    match c with
    | ⟨0, _⟩ => rfl
    | ⟨1, _⟩ => rfl)

/-- The vector unit's sum over the lanes of a matrix, at row `p`: the plain sum of the row's entries. -/
theorem rowSum_apply {a b : ℕ} {φ : FTy} (src : FVec Ideal (⟨2, ![a, b]⟩ : Shape) φ) (acc : BitVec φ.bits)
    (h : (⟨2, ![a, b]⟩ : Shape).Reduces [1] ⟨1, ![a]⟩) (hφ : FKind.Formats φ) (hacc : acc = FKind.add.neutral φ hφ) (p : Fin a) :
    multiReduction .add [1] (⟨1, ![a]⟩ : Shape) src acc h hφ hacc (ix1 p) = ∑ k : Fin b, src (ix2 p k) :=
  (Ideal.multiReduction_add_single src acc h hφ hacc (ix1 p)).trans
    (Finset.sum_congr rfl fun k _ => congrArg src (lift_row h p k))

/-- The host's sum over the lanes of a matrix from an initial scalar, at row `p`: the initial value plus the sum of the row's
    entries. -/
theorem hostRowSum_apply {a b : ℕ} {φ : FTy} (x : FVec Ideal (⟨2, ![a, b]⟩ : Shape) φ) (init : (⟨0, ![]⟩ : Shape).Idx → Ideal φ)
    (h' : (⟨2, ![a, b]⟩ : Shape).ReducesTo [1] ⟨1, ![a]⟩) (hu : 0 < (⟨0, ![]⟩ : Shape).numel)
    (h : (⟨2, ![a, b]⟩ : Shape).Reduces [1] ⟨1, ![a]⟩) (p : Fin a) :
    Host.reduceAdd x init h' hu (ix1 p) = init (Shape.Idx.first hu) + ∑ k : Fin b, x (ix2 p k) :=
  (Ideal.hostReduceAdd_single h' h x (init (Shape.Idx.first hu)) (ix1 p)).trans
    (congrArg (init (Shape.Idx.first hu) + ·) (Finset.sum_congr rfl fun k _ => congrArg x (lift_row h p k)))

/-! ## A vector made a column, a column laid over the lanes -/

/-- An `[a]` array cast to `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- One column broadcast over the lanes reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The host's broadcasts -/

/-- A scalar broadcast to any shape reads the scalar everywhere. -/
theorem broadcastInDim_scalar_apply {t : Shape} (h : (⟨0, ![]⟩ : Shape).BroadcastsInDim t ![]) (v : (⟨0, ![]⟩ : Shape).Idx → α)
    (j : t.Idx) : broadcastInDim t ![] h v j = v ix0 :=
  broadcastInDim_apply ![] h v j ix0 fun ax => ax.elim0

/-- A vector given a trailing unit axis reads, at `(p, u)`, the vector at `p`. -/
theorem broadcastInDim_a_a1_apply {a : ℕ} (v : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h v (ix2 p u) = v (ix1 p) := by
  refine broadcastInDim_apply ![0] h v (ix2 p u) (ix1 p) fun ax => ?_
  match ax with
  | ⟨0, _⟩ =>
    show p.val = if a = 1 then 0 else p.val
    split
    · have := p.isLt; omega
    · rfl

/-- A column broadcast over the lanes by the host reads, at `(p, c)`, the column at `p`. -/
theorem broadcastInDim_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply ![0, 1] h v (ix2 p c) (ix2 p (0 : Fin 1)) fun ax => ?_
  match ax with
  | ⟨0, _⟩ =>
    show p.val = if a = 1 then 0 else p.val
    split
    · have := p.isLt; omega
    · rfl
  | ⟨1, _⟩ => rfl

/-- A vector given a leading unit axis reads, at `(u, c)`, the vector at `c`. -/
theorem broadcastInDim_b_1b_apply {b : ℕ} (v : (⟨1, ![b]⟩ : Shape).Idx → α)
    (h : (⟨1, ![b]⟩ : Shape).BroadcastsInDim ⟨2, ![1, b]⟩ ![1]) (u : Fin 1) (c : Fin b) :
    broadcastInDim ⟨2, ![1, b]⟩ ![1] h v (ix2 u c) = v (ix1 c) := by
  refine broadcastInDim_apply ![1] h v (ix2 u c) (ix1 c) fun ax => ?_
  match ax with
  | ⟨0, _⟩ =>
    show c.val = if b = 1 then 0 else c.val
    split
    · have := c.isLt; omega
    · rfl

/-- One row broadcast over many by the host reads, at `(p, c)`, the row at `c`. -/
theorem broadcastInDim_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) := by
  refine broadcastInDim_apply ![0, 1] h v (ix2 p c) (ix2 (0 : Fin 1) c) fun ax => ?_
  match ax with
  | ⟨0, _⟩ => rfl
  | ⟨1, _⟩ =>
    show c.val = if b = 1 then 0 else c.val
    split
    · have := c.isLt; omega
    · rfl

/-! ## A [1, 1, b] array flattened -/

/-- A `[1, 1, b]` array cast to `[b]` reads, at `c`, the operand at `(0, 0, c)`. -/
theorem shapeCast_11b_b_apply {b : ℕ} (x : (⟨3, ![1, 1, b]⟩ : Shape).Idx → α)
    (h : (⟨3, ![1, 1, b]⟩ : Shape).ShapeCasts ⟨1, ![b]⟩) (c : Fin b) :
    shapeCast ⟨1, ![b]⟩ x h (ix1 c) = x (ix3 (0 : Fin 1) (0 : Fin 1) c) :=
  shapeCast_apply x h _ _ (by
    rw [Shape.rowMajor_val_three, Shape.rowMajor_val_one]
    show (0 * 1 + 0) * b + c.val = c.val
    omega)

/-- A `[1, 1, b]` array cast to `[1, b]` reads, at `(u, c)`, the operand at `(0, 0, c)`. -/
theorem shapeCast_11b_1b_apply {b : ℕ} (x : (⟨3, ![1, 1, b]⟩ : Shape).Idx → α)
    (h : (⟨3, ![1, 1, b]⟩ : Shape).ShapeCasts ⟨2, ![1, b]⟩) (u : Fin 1) (c : Fin b) :
    shapeCast ⟨2, ![1, b]⟩ x h (ix2 u c) = x (ix3 (0 : Fin 1) (0 : Fin 1) c) :=
  shapeCast_apply x h _ _ (by
    have hu : u.val = 0 := by omega
    rw [Shape.rowMajor_val_three, Shape.rowMajor_val_two]
    show (0 * 1 + 0) * b + c.val = u.val * b + c.val
    rw [hu])

end Cert.Keepdims

end
-- ==== Proof.MsgCover.lean ====
/-
  The second region, read at the extended reals: its output array after the two hundred grid points is the message
  array, index by index.

  At grid point t the body takes rows 3200 t … 3200 t + 3199 of the two gathered projections u, v and of the gathered raw
  features f, and the attention row a (the whole 1 x 128 array at every point). For row p of the block it forms
  the score  sum over k of slope(u(p,k) + v(p,k)) * a(0,k)  and the dot product  sum over k of u(p,k) * v(p,k), each a
  sum over the lanes kept as a column, takes the logistic of the dot product, multiplies, takes the logistic again, and
  lays that one weight over the lanes of f's row p. The point writes the block back at rows 3200 t … of the output, and the
  two hundred blocks tile it.
-/
import proofs.«134800_j20641612824581_1_alg».proof.Proof.Gen.KernelIdeal.Frame
import proofs.«134800_j20641612824581_1_alg».proof.Proof.Spec
import proofs.«134800_j20641612824581_1_alg».proof.Proof.LibKeepdims
import Idealize.ShloMosaic.Lib.Pipeline.Value
import Idealize.ShloMosaic.Lib.ValueLayout

set_option maxRecDepth 16384

noncomputable section

namespace Cert.KernelIdeal.Hand

open Idealize.ShloMosaic Idealize.ShloMosaic.TcCoe Idealize.ShloMosaic.ValueIdx Idealize.SL.Sem
open Idealize.ShloMosaic.Pipeline (Dat)
open Cert.KernelIdeal Cert.KernelIdeal.Gen

theorem hz2' : (![0, 0] : Fin 2 → Nat) = fun _ => 0 := funext fun a => by fin_cases a <;> rfl

/-- The body's block at entry (p, q): the raw row's entry times the logistic of the score times the logistic of the dot
    product, both sums over the lanes of row p. -/
theorem msgPay_apply (x0 x1 x2 : FVec Ideal S3200x128 .f32) (x3 : FVec Ideal S1x128 .f32) (p : Fin 3200) (q : Fin 128) :
    k1_pay1 (F := Ideal) x0 x1 x3 x2 (ix2 p q)
      = x2 (ix2 p q) * Ideal.logistic ((∑ k : Fin 128, Cert.Spec.slope (x0 (ix2 p k) + x1 (ix2 p k)) * x3 (ix2 (0 : Fin 1) k))
          * Ideal.logistic (∑ k : Fin 128, x0 (ix2 p k) * x1 (ix2 p k))) := by
  unfold k1_pay1
  simp only [shapeCast_self]
  show x2 (ix2 p q) * broadcastTo S3200x128 _ broadcasts_S3200x1_S3200x128 (ix2 p q) = _
  refine congrArg (x2 (ix2 p q) * ·) ?_
  refine (Cert.Keepdims.broadcastTo_a1_ab_apply _ _ p q).trans ?_
  show Ideal.logistic (shapeCast S3200x1 _ shapeCasts_S3200_S3200x1 (ix2 p (0 : Fin 1))
      * Ideal.logistic (shapeCast S3200x1 _ shapeCasts_S3200_S3200x1 (ix2 p (0 : Fin 1)))) = _
  refine congrArg Ideal.logistic (congrArg₂ (· * ·) ?_ (congrArg Ideal.logistic ?_))
  · refine (Cert.Keepdims.shapeCast_a_a1_apply _ _ p 0).trans ?_
    refine (Cert.Keepdims.rowSum_apply _ _ _ _ _ p).trans ?_
    refine Finset.sum_congr rfl fun k _ => ?_
    exact congrArg₂ (· * ·) rfl (broadcastTo_1b_ab_apply x3 _ p k)
  · refine (Cert.Keepdims.shapeCast_a_a1_apply _ _ p 0).trans ?_
    exact Cert.Keepdims.rowSum_apply _ _ _ _ _ p

/-- The printed index maps over the grid: the three edge-row windows and the output window move one block of rows per
    point, the attention row's stays. -/
theorem idx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

variable (V : (c : Dev nD) → (b : Ref sig .tc) → Buf (Elt Ideal) ((c : Thread nD τ).loc b))

/-- The block of the projected rows at the edges' first ends, at point t, is rows 3200 t … of that array. -/
theorem srcProjBlock_apply (c : Dev nD) (t : Fin cfg1.N) (y : S3200x128.Idx) (i : S640000x128.Idx)
    (h0 : (i 0).val = t.val * 3200 + (y 0).val) (h1 : (i 1).val = (y 1).val) :
    (iblk1 V c 0 t : Vec Ideal S3200x128 .f32) y = (V c main_v7 : S640000x128.Idx → EReal) i := by
  obtain ⟨e00, e01, e10, e11, e20, e21, -⟩ := idx1 t
  unfold iblk1
  rw [View.read_apply]
  show V c main_v7 _ = V c main_v7 _
  congr 1
  funext a
  apply Fin.ext
  match a with
  | ⟨0, _⟩ => show win1_0.index t (0 : Fin 2) * 3200 + 1 * (y 0).val = (i 0).val; rw [e00, h0]; omega
  | ⟨1, _⟩ => show win1_0.index t (1 : Fin 2) * 128 + 1 * (y 1).val = (i 1).val; rw [e01, h1]; omega

/-- The block of the projected rows at the edges' second ends, at point t, is rows 3200 t … of that array. -/
theorem dstProjBlock_apply (c : Dev nD) (t : Fin cfg1.N) (y : S3200x128.Idx) (i : S640000x128.Idx)
    (h0 : (i 0).val = t.val * 3200 + (y 0).val) (h1 : (i 1).val = (y 1).val) :
    (iblk1 V c 1 t : Vec Ideal S3200x128 .f32) y = (V c main_v14 : S640000x128.Idx → EReal) i := by
  obtain ⟨e00, e01, e10, e11, e20, e21, -⟩ := idx1 t
  unfold iblk1
  rw [View.read_apply]
  show V c main_v14 _ = V c main_v14 _
  congr 1
  funext a
  apply Fin.ext
  match a with
  | ⟨0, _⟩ => show win1_1.index t (0 : Fin 2) * 3200 + 1 * (y 0).val = (i 0).val; rw [e10, h0]; omega
  | ⟨1, _⟩ => show win1_1.index t (1 : Fin 2) * 128 + 1 * (y 1).val = (i 1).val; rw [e11, h1]; omega

/-- The block of the raw rows at the edges' first ends, at point t, is rows 3200 t … of that array. -/
theorem srcFeatBlock_apply (c : Dev nD) (t : Fin cfg1.N) (y : S3200x128.Idx) (i : S640000x128.Idx)
    (h0 : (i 0).val = t.val * 3200 + (y 0).val) (h1 : (i 1).val = (y 1).val) :
    (iblk1 V c 2 t : Vec Ideal S3200x128 .f32) y = (V c main_v21 : S640000x128.Idx → EReal) i := by
  obtain ⟨e00, e01, e10, e11, e20, e21, -⟩ := idx1 t
  unfold iblk1
  rw [View.read_apply]
  show V c main_v21 _ = V c main_v21 _
  congr 1
  funext a
  apply Fin.ext
  match a with
  | ⟨0, _⟩ => show win1_2.index t (0 : Fin 2) * 3200 + 1 * (y 0).val = (i 0).val; rw [e20, h0]; omega
  | ⟨1, _⟩ => show win1_2.index t (1 : Fin 2) * 128 + 1 * (y 1).val = (i 1).val; rw [e21, h1]; omega

/-- The attention row's block at every point is the whole row. -/
theorem attnBlock_apply (c : Dev nD) (t : Fin cfg1.N) (y : S1x128.Idx) :
    (iblk1 V c 3 t : Vec Ideal S1x128 .f32) y = (V c main_v22 : S1x128.Idx → EReal) y := by
  obtain ⟨-, -, -, -, -, -, e0, e1, -⟩ := idx1 t
  unfold iblk1
  rw [View.read_apply]
  show V c main_v22 _ = V c main_v22 _
  congr 1
  funext a
  apply Fin.ext
  match a with
  | ⟨0, _⟩ => show win1_3.index t (0 : Fin 2) * 1 + 1 * (y 0).val = (y 0).val; rw [e0]; omega
  | ⟨1, _⟩ => show win1_3.index t (1 : Fin 2) * 128 + 1 * (y 1).val = (y 1).val; rw [e1]; omega

/-- The body's block at point t, read at an index of the block, is the message at the array index that row and lane
    name. -/
theorem msgBlock_eq (c : Dev nD) (t : Fin cfg1.N) (y : S3200x128.Idx) (i : S640000x128.Idx)
    (h0 : (i 0).val = t.val * 3200 + (y 0).val) (h1 : (i 1).val = (y 1).val) :
    k1_pay1 (F := Ideal) (iblk1 V c 0 t) (iblk1 V c 1 t) (iblk1 V c 3 t) (iblk1 V c 2 t) y
      = Cert.Spec.msgAt (V c main_v7) (V c main_v14) (V c main_v21) (fun k => V c main_v22 (ix2 (0 : Fin 1) k)) i := by
  obtain ⟨p, q, rfl⟩ : ∃ (p : Fin 3200) (q : Fin 128), y = ix2 p q := ⟨y 0, y 1, eq_ix2 y⟩
  refine (msgPay_apply (iblk1 V c 0 t) (iblk1 V c 1 t) (iblk1 V c 2 t) (iblk1 V c 3 t) p q).trans ?_
  unfold Cert.Spec.msgAt Cert.Spec.edgeWeight Cert.Spec.score Cert.Spec.endsDot
  have eu : ∀ k : Fin 128, (iblk1 V c 0 t : Vec Ideal S3200x128 .f32) (ix2 p k) = (V c main_v7 : S640000x128.Idx → EReal) (ix2 (i 0) k) :=
    fun k => srcProjBlock_apply V c t (ix2 p k) (ix2 (i 0) k) h0 rfl
  have ev : ∀ k : Fin 128, (iblk1 V c 1 t : Vec Ideal S3200x128 .f32) (ix2 p k) = (V c main_v14 : S640000x128.Idx → EReal) (ix2 (i 0) k) :=
    fun k => dstProjBlock_apply V c t (ix2 p k) (ix2 (i 0) k) h0 rfl
  have ea : ∀ k : Fin 128, (iblk1 V c 3 t : Vec Ideal S1x128 .f32) (ix2 (0 : Fin 1) k) = (V c main_v22 : S1x128.Idx → EReal) (ix2 (0 : Fin 1) k) :=
    fun k => attnBlock_apply V c t (ix2 (0 : Fin 1) k)
  refine congrArg₂ (· * ·) (srcFeatBlock_apply V c t (ix2 p q) i h0 h1)
    (congrArg Ideal.logistic (congrArg₂ (· * ·)
      (Finset.sum_congr rfl fun k _ => by rw [eu k, ev k, ea k])
      (congrArg Ideal.logistic (Finset.sum_congr rfl fun k _ => by rw [eu k, ev k]))))

/-- What point t writes back is block t of the message array. -/
theorem msg_flushed (c : Dev nD) (t : Fin cfg1.N) :
    (dat1 V c).flushed 4 t = ((cfg1.win 4).blk t).view.read (Elt Ideal)
      (Cert.Spec.msgAt (V c main_v7) (V c main_v14) (V c main_v21) (fun k => V c main_v22 (ix2 (0 : Fin 1) k))) := by
  show (cfg1.win 4).cut (grid1.coords t) ((dat1 V c).after 4 t) = _
  rw [after1_4]
  unfold out1_4
  rw [View.canon_unit_zero hz2']
  simp only [View.ld_unit_zero (S := S3200x128) hz2', View.ld_unit_zero (S := S1x128) hz2']
  obtain ⟨-, -, -, -, -, -, -, -, e0, e1⟩ := idx1 t
  funext y
  show k1_pay1 (F := Ideal) (iblk1 V c 0 t) (iblk1 V c 1 t) (iblk1 V c 3 t) (iblk1 V c 2 t) y
    = Cert.Spec.msgAt (V c main_v7) (V c main_v14) (V c main_v21) (fun k => V c main_v22 (ix2 (0 : Fin 1) k)) (((cfg1.win 4).blk t).view.emb y)
  refine msgBlock_eq V c t y _ ?_ ?_
  · show win1_4.index t (0 : Fin 2) * 3200 + 1 * (y 0).val = t.val * 3200 + (y 0).val
    rw [e0]; omega
  · show win1_4.index t (1 : Fin 2) * 128 + 1 * (y 1).val = (y 1).val
    rw [e1]; omega

/-- An index of the output is in point t's block iff each coordinate is in the block's range on its axis. -/
theorem msg_mem_blk (t : Fin cfg1.N) (i : S640000x128.Idx) :
    i ∈ ((cfg1.win 4).blk t).view.set ↔ ∀ a : Fin 2, win1_4.index t a * S3200x128.size a ≤ (i a).val ∧ (i a).val < win1_4.index t a * S3200x128.size a + S3200x128.size a := by
  show i ∈ ((View.whole main_v23).slice (win1_4.rect t)).set ↔ _
  rw [View.set_slice_whole, Rect.mem_set_unit]
  exact Iff.rfl

/-- After the region the output array is the message array: row r is written by point r / 3200. -/
theorem msg_final (c : Dev nD) : (dat1 V c).arrAt 4 cfg1.N
    = Cert.Spec.msgAt (V c main_v7) (V c main_v14) (V c main_v21) (fun k => V c main_v22 (ix2 (0 : Fin 1) k)) :=
  (dat1 V c).arrAt_eq_of_cover 4 _ (fun t _ => msg_flushed V c t) fun i => by
    have hi0 : (i 0).val < 640000 := idx2_lt0 i
    have hi1 : (i 1).val < 128 := idx2_lt1 i
    refine ⟨⟨(i 0).val / 3200, by rw [show cfg1.N = 200 from N_1]; omega⟩, flush1_4 _, ?_⟩
    rw [msg_mem_blk]
    obtain ⟨-, -, -, -, -, -, -, -, e0, e1⟩ := idx1 ⟨(i 0).val / 3200, by rw [show cfg1.N = 200 from N_1]; omega⟩
    intro a
    match a with
    | ⟨0, _⟩ =>
      show win1_4.index _ (0 : Fin 2) * 3200 ≤ (i 0).val ∧ (i 0).val < win1_4.index _ (0 : Fin 2) * 3200 + 3200
      rw [e0]; show (i 0).val / 3200 * 3200 ≤ (i 0).val ∧ (i 0).val < (i 0).val / 3200 * 3200 + 3200; omega
    | ⟨1, _⟩ =>
      show win1_4.index _ (1 : Fin 2) * 128 ≤ (i 1).val ∧ (i 1).val < win1_4.index _ (1 : Fin 2) * 128 + 128
      rw [e1]; omega

end Cert.KernelIdeal.Hand

end
-- ==== Proof.KernelValue.lean ====
/-
  The kernel's program as one function of the arguments, at the extended reals: the result buffer ends at the closing
  stretch of the message array, the message array is the specification's over the rows gathered from the
  specification's projection and from the raw features, and the attention row read on lane k is the attention vector's
  entry k.
-/
import proofs.«134800_j20641612824581_1_alg».proof.Proof.KernelHost
import proofs.«134800_j20641612824581_1_alg».proof.Proof.ProjCover
import proofs.«134800_j20641612824581_1_alg».proof.Proof.MsgCover

set_option maxRecDepth 16384

noncomputable section

namespace Cert.KernelIdeal.Hand

open Idealize.ShloMosaic Idealize.ShloMosaic.TcCoe Idealize.ShloMosaic.ValueIdx Idealize.SL.Sem
open Idealize.ShloMosaic.Pipeline (Dat)
open Cert.KernelIdeal Cert.KernelIdeal.Gen

variable (m : (ℓ : Loc nD τ sig) → Buf (Elt Ideal) ℓ) (ρ : Dev nD → PrngReg)

/-- The attention vector as one row reads, on lane k, the vector's entry k. -/
theorem attnRow_apply (a : FVec Ideal S1x1x128 .f32) (k : Fin 128) :
    attnRow a (ix2 (0 : Fin 1) k) = a (ix3 (0 : Fin 1) (0 : Fin 1) k) :=
  Cert.Keepdims.shapeCast_11b_1b_apply a shapeCasts_S1x1x128_S1x128 0 k

/-- After the first region the projection's array is the specification's projection of the launched features and weight. -/
theorem projArr_eq (c : Dev nD) :
    projArr m ρ c = Cert.Spec.projAt (m ((c : Thread nD τ).loc main_arg0)) (m ((c : Thread nD τ).loc main_arg1)) :=
  proj_final (V0 m ρ) c

/-- After the second region the message array is the specification's, over the gathered rows. -/
theorem msgArr_eq (c : Dev nD) :
    msgArr m ρ c
      = Cert.Spec.msgAt
          (rows (F := Ideal) (Cert.Spec.projAt (m ((c : Thread nD τ).loc main_arg0)) (m ((c : Thread nD τ).loc main_arg1))) (m ((c : Thread nD τ).loc main_arg4)))
          (rows (F := Ideal) (Cert.Spec.projAt (m ((c : Thread nD τ).loc main_arg0)) (m ((c : Thread nD τ).loc main_arg1))) (m ((c : Thread nD τ).loc main_arg5)))
          (rows (F := Ideal) (m ((c : Thread nD τ).loc main_arg0)) (m ((c : Thread nD τ).loc main_arg4)))
          (fun k => (m ((c : Thread nD τ).loc main_arg2) : S1x1x128.Idx → EReal) (ix3 (0 : Fin 1) (0 : Fin 1) k)) := by
  refine (msg_final (V2 m ρ) c).trans ?_
  rw [V2_v7 m ρ c, V2_v14 m ρ c, V2_v21 m ρ c, V2_v22 m ρ c, projArr_eq m ρ c]
  congr 1
  funext k
  exact attnRow_apply _ k

/-- The result buffer after the run, as one function of the launched arguments. -/
theorem value (c : Dev nD) :
    W4 m ρ c (Proc.devRef .tc main_v40)
      = tail (F := Ideal) (Cert.Spec.msgAt
          (rows (F := Ideal) (Cert.Spec.projAt (m ((c : Thread nD τ).loc main_arg0)) (m ((c : Thread nD τ).loc main_arg1))) (m ((c : Thread nD τ).loc main_arg4)))
          (rows (F := Ideal) (Cert.Spec.projAt (m ((c : Thread nD τ).loc main_arg0)) (m ((c : Thread nD τ).loc main_arg1))) (m ((c : Thread nD τ).loc main_arg5)))
          (rows (F := Ideal) (m ((c : Thread nD τ).loc main_arg0)) (m ((c : Thread nD τ).loc main_arg4)))
          (fun k => (m ((c : Thread nD τ).loc main_arg2) : S1x1x128.Idx → EReal) (ix3 (0 : Fin 1) (0 : Fin 1) k)))
        (m ((c : Thread nD τ).loc main_arg5)) (m ((c : Thread nD τ).loc main_arg3)) (m ((c : Thread nD τ).loc main_arg0)) := by
  rw [W4_v40 m ρ c, msgArr_eq m ρ c]

end Cert.KernelIdeal.Hand

end
-- ==== Proof.RefRun.lean ====
/-
  The reference program's run. Its @main is a straight line of host operations, one of which is a call of the
  rectifier with a slope (itself calling the select): the callee's operations are listed here at the call site over the
  call's own buffers, so the whole of @main is ONE list of operations, and every weakly fair execution ends with each
  buffer at the fold of that list over the launch contents.
-/
import proofs.«134800_j20641612824581_1_alg».proof.Proof.Gen.ReferenceIdeal
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- The first stretch: the projection (a contraction with the transposed weight), the two gathers of its rows at the
    wrapped edge ends, the slope rectifier of their sum (the callee's six operations and its select, inline), the
    two lane sums, the two logistic weights spelt as negate, exponential, add one, divide, the gather of the raw rows and
    the weight broadcast over the lanes. -/
abbrev ops0 : List (HloOp τ sig (Elt F)) :=
  [ unary main_arg1 main_v0 (transpose S128x128 [1, 0] · transposes_S128x128_S128x128_1_0),
    binary main_arg0 main_v0 main_v1 (fun l r => Host.dotGeneral dot_S10000x128_S128x128_S10000x128_1_0_0_1_n_n none l r),
    nullary main_c (constantI S_ 32 0#32),
    unary main_c main_v2 (broadcastInDim S640000 ![] bcast_S_S640000),
    binary main_arg4 main_v2 main_v3 (cmpi .slt),
    nullary main_c_0 (constantI S_ 32 10000#32),
    unary main_c_0 main_v4 (broadcastInDim S640000 ![] bcast_S_S640000),
    binary main_arg4 main_v4 main_v5 addi,
    ternary main_v3 main_v5 main_arg4 main_v6 select,
    unary main_v6 main_v7 (broadcastInDim S640000x1 ![0] bcast_S640000_S640000x1_0),
    binary main_v1 main_v7 main_v8 (fun x i => Host.gather gather_S10000x128_S640000x1_S640000x128_1_0_n_n_0_1_1128 x i),
    nullary main_c_1 (constantI S_ 32 0#32),
    unary main_c_1 main_v9 (broadcastInDim S640000 ![] bcast_S_S640000),
    binary main_arg5 main_v9 main_v10 (cmpi .slt),
    nullary main_c_2 (constantI S_ 32 10000#32),
    unary main_c_2 main_v11 (broadcastInDim S640000 ![] bcast_S_S640000),
    binary main_arg5 main_v11 main_v12 addi,
    ternary main_v10 main_v12 main_arg5 main_v13 select,
    unary main_v13 main_v14 (broadcastInDim S640000x1 ![0] bcast_S640000_S640000x1_0),
    binary main_v1 main_v14 main_v15 (fun x i => Host.gather gather_S10000x128_S640000x1_S640000x128_1_0_n_n_0_1_1128 x i),
    reshape main_arg2 main_v16 rfl shapeCasts_S1x1x128_S128,
    binary main_v8 main_v15 main_v17 addf,
    nullary main_cst (constant S_ .f32 0x3E4CCCCD#32),
    TRef.nullary main_call0.cst (constant S_ .f32 0x00000000#32),
    TRef.unary main_call0.cst main_call0.v0 (broadcastInDim S640000x128 ![] bcast_S_S640000x128),
    TRef.binary (.of main_v17) main_call0.v0 main_call0.v1 (cmpf .oge),
    TRef.unary (.of main_cst) main_call0.v2 id,
    TRef.unary main_call0.v2 main_call0.v3 (broadcastInDim S640000x128 ![] bcast_S_S640000x128),
    TRef.binary main_call0.v3 (.of main_v17) main_call0.v4 mulf,
    TRef.ternary main_call0.v1 (.of main_v17) main_call0.v4 main_call0.call0.v0 select,
    unary main_v16 main_v19 (broadcastInDim S1x128 ![1] bcast_S128_S1x128_1),
    unary main_v19 main_v20 (broadcastInDim S640000x128 ![0, 1] bcast_S1x128_S640000x128_0_1),
    binary main_v18 main_v20 main_v21 mulf,
    nullary main_cst_3 (constant S_ .f32 0x00000000#32),
    binary main_v21 main_cst_3 main_v22 (fun x v => Host.reduceAdd x v reducesTo_S640000x128_S640000_d1 h_S_),
    binary main_v8 main_v15 main_v23 mulf,
    nullary main_cst_4 (constant S_ .f32 0x00000000#32),
    binary main_v23 main_cst_4 main_v24 (fun x v => Host.reduceAdd x v reducesTo_S640000x128_S640000_d1 h_S_),
    unary main_v24 main_v25 Host.negf,
    unary main_v25 main_v26 Host.exp,
    nullary main_cst_5 (constant S_ .f32 0x3F800000#32),
    unary main_cst_5 main_v27 (broadcastInDim S640000 ![] bcast_S_S640000),
    binary main_v27 main_v26 main_v28 addf,
    nullary main_cst_6 (constant S_ .f32 0x3F800000#32),
    unary main_cst_6 main_v29 (broadcastInDim S640000 ![] bcast_S_S640000),
    binary main_v29 main_v28 main_v30 Host.divf,
    binary main_v22 main_v30 main_v31 mulf,
    unary main_v31 main_v32 Host.negf,
    unary main_v32 main_v33 Host.exp,
    nullary main_cst_7 (constant S_ .f32 0x3F800000#32),
    unary main_cst_7 main_v34 (broadcastInDim S640000 ![] bcast_S_S640000),
    binary main_v34 main_v33 main_v35 addf,
    nullary main_cst_8 (constant S_ .f32 0x3F800000#32),
    unary main_cst_8 main_v36 (broadcastInDim S640000 ![] bcast_S_S640000),
    binary main_v36 main_v35 main_v37 Host.divf,
    nullary main_c_9 (constantI S_ 32 0#32),
    unary main_c_9 main_v38 (broadcastInDim S640000 ![] bcast_S_S640000),
    binary main_arg4 main_v38 main_v39 (cmpi .slt),
    nullary main_c_10 (constantI S_ 32 10000#32),
    unary main_c_10 main_v40 (broadcastInDim S640000 ![] bcast_S_S640000),
    binary main_arg4 main_v40 main_v41 addi,
    ternary main_v39 main_v41 main_arg4 main_v42 select,
    unary main_v42 main_v43 (broadcastInDim S640000x1 ![0] bcast_S640000_S640000x1_0),
    binary main_arg0 main_v43 main_v44 (fun x i => Host.gather gather_S10000x128_S640000x1_S640000x128_1_0_n_n_0_1_1128 x i),
    unary main_v37 main_v45 (broadcastInDim S640000x1 ![0] bcast_S640000_S640000x1_0),
    unary main_v45 main_v46 (broadcastInDim S640000x128 ![0, 1] bcast_S640000x1_S640000x128_0_1) ]

/-- The second stretch: the message, its sum into the node rows at the edge ends, the in-degree the same way, the mean
    with the degree clamped at one, and the node update. -/
abbrev ops1 : List (HloOp τ sig (Elt F)) :=
  [ binary main_v44 main_v46 main_v47 mulf,
    nullary main_cst_11 (constant S_ .f32 0x00000000#32),
    unary main_cst_11 main_v48 (broadcastInDim S10000x128 ![] bcast_S_S10000x128),
    unary main_arg5 main_v49 (broadcastInDim S640000x1 ![0] bcast_S640000_S640000x1_0),
    ternary main_v48 main_v49 main_v47 main_v50 (fun x i u => Host.scatterAdd scatter_S10000x128_S640000x1_S640000x128_1_0_0_1 x i u),
    nullary main_cst_12 (constant S_ .f32 0x3F800000#32),
    unary main_cst_12 main_v51 (broadcastInDim S640000 ![] bcast_S_S640000),
    nullary main_cst_13 (constant S_ .f32 0x00000000#32),
    unary main_cst_13 main_v52 (broadcastInDim S10000 ![] bcast_S_S10000),
    unary main_arg5 main_v53 (broadcastInDim S640000x1 ![0] bcast_S640000_S640000x1_0),
    ternary main_v52 main_v53 main_v51 main_v54 (fun x i u => Host.scatterAdd scatter_S10000_S640000x1_S640000_n_0_0_1 x i u),
    nullary main_cst_14 (constant S_ .f32 0x3F800000#32),
    unary main_cst_14 main_v55 (broadcastInDim S10000 ![] bcast_S_S10000),
    binary main_v54 main_v55 main_v56 maximumf,
    unary main_v56 main_v57 (broadcastInDim S10000x1 ![0] bcast_S10000_S10000x1_0),
    unary main_v57 main_v58 (broadcastInDim S10000x128 ![0, 1] bcast_S10000x1_S10000x128_0_1),
    binary main_v50 main_v58 main_v59 Host.divf,
    reshape main_arg3 main_v60 rfl shapeCasts_S1_S_,
    nullary main_cst_15 (constant S_ .f32 0x3F800000#32),
    binary main_cst_15 main_v60 main_v61 addf,
    unary main_v61 main_v62 (broadcastInDim S10000x128 ![] bcast_S_S10000x128),
    binary main_v62 main_arg0 main_v63 mulf,
    binary main_v63 main_v59 main_v64 addf ]

/-- @main's operations, in order. -/
abbrev ops : List (HloOp τ sig (Elt F)) := ops0 ++ ops1

set_option maxRecDepth 8192 in
/-- The first window of @main is the first stretch: the callee's and its callee's definitions unfolded at the call and the
    sequencing re-associated, both sides are one chain of steps. -/
theorem part0_eq (c : Dev nD) : main_part0 (F := F) c = seq ops0 := by
  simp only [main_part0, fn_leaky_relu.body, fn_where.body, seq, bind_assoc, pure_bind]
  rfl

set_option maxRecDepth 8192 in
theorem part1_eq (c : Dev nD) : main_part1 (F := F) c = seq ops1 := rfl

set_option maxRecDepth 8192 in
theorem main_eq (c : Dev nD) : main (F := F) c = seq ops := by
  simp only [ops, seq_append, ← part0_eq c, ← part1_eq c]
  rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem ops0_sub : (ops0 : List (HloOp τ sig (Elt F))).Forall fun op => op.bufs ⊆ tcRefs τ sig :=
  ⟨unary_bufs_sub .., binary_bufs_sub .., nullary_bufs_sub .., unary_bufs_sub .., binary_bufs_sub .., nullary_bufs_sub ..,
    unary_bufs_sub .., binary_bufs_sub .., ternary_bufs_sub .., unary_bufs_sub .., binary_bufs_sub ..,
    nullary_bufs_sub .., unary_bufs_sub .., binary_bufs_sub .., nullary_bufs_sub .., unary_bufs_sub .., binary_bufs_sub ..,
    ternary_bufs_sub .., unary_bufs_sub .., binary_bufs_sub .., reshape_bufs_sub .., binary_bufs_sub .., nullary_bufs_sub ..,
    nullary_bufs_sub .., unary_bufs_sub .., binary_bufs_sub .., unary_bufs_sub .., unary_bufs_sub .., binary_bufs_sub ..,
    ternary_bufs_sub .., unary_bufs_sub .., unary_bufs_sub .., binary_bufs_sub .., nullary_bufs_sub .., binary_bufs_sub ..,
    binary_bufs_sub .., nullary_bufs_sub .., binary_bufs_sub .., unary_bufs_sub .., unary_bufs_sub .., nullary_bufs_sub ..,
    unary_bufs_sub .., binary_bufs_sub .., nullary_bufs_sub .., unary_bufs_sub .., binary_bufs_sub .., binary_bufs_sub ..,
    unary_bufs_sub .., unary_bufs_sub .., nullary_bufs_sub .., unary_bufs_sub .., binary_bufs_sub .., nullary_bufs_sub ..,
    unary_bufs_sub .., binary_bufs_sub .., nullary_bufs_sub .., unary_bufs_sub .., binary_bufs_sub .., nullary_bufs_sub ..,
    unary_bufs_sub .., binary_bufs_sub .., ternary_bufs_sub .., unary_bufs_sub .., binary_bufs_sub .., unary_bufs_sub ..,
    unary_bufs_sub ..⟩

set_option maxRecDepth 8192 in
theorem ops1_sub : (ops1 : List (HloOp τ sig (Elt F))).Forall fun op => op.bufs ⊆ tcRefs τ sig :=
  ⟨binary_bufs_sub .., nullary_bufs_sub .., unary_bufs_sub .., unary_bufs_sub .., ternary_bufs_sub .., nullary_bufs_sub ..,
    unary_bufs_sub .., nullary_bufs_sub .., unary_bufs_sub .., unary_bufs_sub .., ternary_bufs_sub .., nullary_bufs_sub ..,
    unary_bufs_sub .., binary_bufs_sub .., unary_bufs_sub .., unary_bufs_sub .., binary_bufs_sub .., reshape_bufs_sub ..,
    nullary_bufs_sub .., binary_bufs_sub .., unary_bufs_sub .., binary_bufs_sub .., binary_bufs_sub ..⟩

theorem ops_sub : (ops : List (HloOp τ sig (Elt F))).Forall fun op => op.bufs ⊆ tcRefs τ sig :=
  List.forall_iff_forall_mem.mpr fun op h => by
    simp only [ops, List.mem_append] at h
    rcases h with h | h
    exacts [List.forall_iff_forall_mem.mp ops0_sub op h, List.forall_iff_forall_mem.mp ops1_sub op h]

/-- From any memory with zero counters every weakly fair execution of @main terminates, and every final state has each
    buffer at the fold of the operations over the launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.HandRun

end
-- ==== Proof.RefValue.lean ====
/-
  What the reference computes, as named stages of the argument arrays: the projection, its rows and the raw rows
  gathered at the wrapped edge ends, the per-edge weight (a logistic of the slope-rectified score times a logistic of
  the end rows' dot product), the message, and the closing stretch (sum into node rows, mean by clamped in-degree,
  node update). The fold of @main's operations at the result buffer is their composition.
-/
import proofs.«134800_j20641612824581_1_alg».proof.Proof.RefRun

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- An edge end as a gather index: a negative end wraps by the node count; the column axis of the index table added. -/
def idx (a : IVec S640000 32) : IVec S640000x1 32 :=
  broadcastInDim S640000x1 ![0] bcast_S640000_S640000x1_0
    (select (cmpi .slt a (broadcastInDim S640000 ![] bcast_S_S640000 (constantI S_ 32 0#32)))
      (addi a (broadcastInDim S640000 ![] bcast_S_S640000 (constantI S_ 32 10000#32))) a)

/-- The projection: the node features contracted with the transposed weight. -/
def proj (x : FVec F S10000x128 .f32) (w : FVec F S128x128 .f32) : FVec F S10000x128 .f32 :=
  Host.dotGeneral dot_S10000x128_S128x128_S10000x128_1_0_0_1_n_n none x (transpose S128x128 [1, 0] w transposes_S128x128_S128x128_1_0)

/-- The rows of a node array at the edge ends. -/
def rows (p : FVec F S10000x128 .f32) (a : IVec S640000 32) : FVec F S640000x128 .f32 :=
  Host.gather gather_S10000x128_S640000x1_S640000x128_1_0_n_n_0_1_1128 p (idx a)

/-- The rectifier with slope: the entry where it is at least zero, the slope times it elsewhere. -/
def lrelu (s : FVec F S640000x128 .f32) : FVec F S640000x128 .f32 :=
  select (cmpf .oge s (broadcastInDim S640000x128 ![] bcast_S_S640000x128 (constant S_ .f32 0x00000000#32))) s
    (mulf (broadcastInDim S640000x128 ![] bcast_S_S640000x128 (id (constant S_ .f32 0x3E4CCCCD#32))) s)

/-- The logistic as the host spells it: one over one plus the exponential of the negation. -/
def sigm (x : FVec F S640000 .f32) : FVec F S640000 .f32 :=
  Host.divf (broadcastInDim S640000 ![] bcast_S_S640000 (constant S_ .f32 0x3F800000#32))
    (addf (broadcastInDim S640000 ![] bcast_S_S640000 (constant S_ .f32 0x3F800000#32)) (Host.exp (Host.negf x)))

/-- The sum over the lanes of each edge's row. -/
def rsum (x : FVec F S640000x128 .f32) : FVec F S640000 .f32 :=
  Host.reduceAdd x (constant S_ .f32 0x00000000#32) reducesTo_S640000x128_S640000_d1 h_S_

/-- The attention vector laid along every edge's row. -/
def attnRows (a : FVec F S1x1x128 .f32) : FVec F S640000x128 .f32 :=
  broadcastInDim S640000x128 ![0, 1] bcast_S1x128_S640000x128_0_1
    (broadcastInDim S1x128 ![1] bcast_S128_S1x128_1 (fun i => shapeCast S128 a shapeCasts_S1x1x128_S128 i))

/-- The per-edge weight. -/
def weight (el er : FVec F S640000x128 .f32) (a : FVec F S1x1x128 .f32) : FVec F S640000 .f32 :=
  sigm (mulf (rsum (mulf (lrelu (addf el er)) (attnRows a))) (sigm (rsum (mulf el er))))

/-- The message: the raw row at the edge's source times the edge's weight on every lane. -/
def msg (fs : FVec F S640000x128 .f32) (w : FVec F S640000 .f32) : FVec F S640000x128 .f32 :=
  mulf fs (broadcastInDim S640000x128 ![0, 1] bcast_S640000x1_S640000x128_0_1 (broadcastInDim S640000x1 ![0] bcast_S640000_S640000x1_0 w))

/-- The closing stretch: messages summed into node rows at the edge ends, divided by the in-degree clamped at one, added
    to the features scaled by one plus the scalar. -/
def tail (ms : FVec F S640000x128 .f32) (a5 : IVec S640000 32) (a3 : FVec F S1 .f32) (a0 : FVec F S10000x128 .f32) : FVec F S10000x128 .f32 :=
  addf (mulf (broadcastInDim S10000x128 ![] bcast_S_S10000x128 (addf (constant S_ .f32 0x3F800000#32) (fun i => shapeCast S_ a3 shapeCasts_S1_S_ i))) a0)
    (Host.divf
      (Host.scatterAdd scatter_S10000x128_S640000x1_S640000x128_1_0_0_1
        (broadcastInDim S10000x128 ![] bcast_S_S10000x128 (constant S_ .f32 0x00000000#32))
        (broadcastInDim S640000x1 ![0] bcast_S640000_S640000x1_0 a5) ms)
      (broadcastInDim S10000x128 ![0, 1] bcast_S10000x1_S10000x128_0_1 (broadcastInDim S10000x1 ![0] bcast_S10000_S10000x1_0
        (maximumf
          (Host.scatterAdd scatter_S10000_S640000x1_S640000_n_0_0_1
            (broadcastInDim S10000 ![] bcast_S_S10000 (constant S_ .f32 0x00000000#32))
            (broadcastInDim S640000x1 ![0] bcast_S640000_S640000x1_0 a5)
            (broadcastInDim S640000 ![] bcast_S_S640000 (constant S_ .f32 0x3F800000#32)))
          (broadcastInDim S10000 ![] bcast_S_S10000 (constant S_ .f32 0x3F800000#32))))))

/-- The whole reference as one function of the argument arrays. -/
def whole (x : FVec F S10000x128 .f32) (w : FVec F S128x128 .f32) (a : FVec F S1x1x128 .f32) (e : FVec F S1 .f32)
    (s d : IVec S640000 32) : FVec F S10000x128 .f32 :=
  tail (msg (rows x s) (weight (rows (proj x w) s) (rows (proj x w) d) a)) d e x

attribute [local irreducible] Host.reduceAdd Host.gather Host.scatterAdd in
set_option maxRecDepth 8192 in
set_option maxHeartbeats 2000000 in
/-- The fold of @main's operations at the result buffer is `whole` of the launch contents of the six arguments: each
    operation's result read at its own buffer, outermost first; what is left is the composition of the named stages. -/
theorem result_eq (V : Valuation τ sig (Elt F)) :
    after ops V (main_v64 : DevRef τ sig)
      = whole (V (main_arg0 : DevRef τ sig)) (V (main_arg1 : DevRef τ sig)) (V (main_arg2 : DevRef τ sig))
          (V (main_arg3 : DevRef τ sig)) (V (main_arg4 : DevRef τ sig)) (V (main_arg5 : DevRef τ sig)) := by
  simp only [ops, ops0, ops1, List.cons_append, List.nil_append]
  after_results_simp
  rfl

/-! No operation writes an argument: the fold at an argument's buffer is the launch contents. -/

set_option maxRecDepth 8192 in
theorem arg0_eq (V : Valuation τ sig (Elt F)) : after ops V (main_arg0 : DevRef τ sig) = V (main_arg0 : DevRef τ sig) := by
  simp only [ops, ops0, ops1, List.cons_append, List.nil_append]
  after_results_simp
set_option maxRecDepth 8192 in
theorem arg1_eq (V : Valuation τ sig (Elt F)) : after ops V (main_arg1 : DevRef τ sig) = V (main_arg1 : DevRef τ sig) := by
  simp only [ops, ops0, ops1, List.cons_append, List.nil_append]
  after_results_simp
set_option maxRecDepth 8192 in
theorem arg2_eq (V : Valuation τ sig (Elt F)) : after ops V (main_arg2 : DevRef τ sig) = V (main_arg2 : DevRef τ sig) := by
  simp only [ops, ops0, ops1, List.cons_append, List.nil_append]
  after_results_simp
set_option maxRecDepth 8192 in
theorem arg3_eq (V : Valuation τ sig (Elt F)) : after ops V (main_arg3 : DevRef τ sig) = V (main_arg3 : DevRef τ sig) := by
  simp only [ops, ops0, ops1, List.cons_append, List.nil_append]
  after_results_simp
set_option maxRecDepth 8192 in
theorem arg4_eq (V : Valuation τ sig (Elt F)) : after ops V (main_arg4 : DevRef τ sig) = V (main_arg4 : DevRef τ sig) := by
  simp only [ops, ops0, ops1, List.cons_append, List.nil_append]
  after_results_simp
set_option maxRecDepth 8192 in
theorem arg5_eq (V : Valuation τ sig (Elt F)) : after ops V (main_arg5 : DevRef τ sig) = V (main_arg5 : DevRef τ sig) := by
  simp only [ops, ops0, ops1, List.cons_append, List.nil_append]
  after_results_simp

/-- The run, read: every weakly fair execution terminates with the result buffer at `whole` of the launch contents of the
    arguments, and the arguments as launched. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v64)
          = whole (m ((c.tc : Thread nD τ).loc main_arg0)) (m ((c.tc : Thread nD τ).loc main_arg1)) (m ((c.tc : Thread nD τ).loc main_arg2))
              (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
      ⟨(h c main_v64).trans (result_eq (launchContents m c)),
       (h c main_arg0).trans (arg0_eq (launchContents m c)),
       (h c main_arg1).trans (arg1_eq (launchContents m c)),
       (h c main_arg2).trans (arg2_eq (launchContents m c)),
       (h c main_arg3).trans (arg3_eq (launchContents m c)),
       (h c main_arg4).trans (arg4_eq (launchContents m c)),
       (h c main_arg5).trans (arg5_eq (launchContents m c))⟩)
    (run_all m ρ)

end Cert.ReferenceIdeal.HandRun

end
-- ==== Proof.Consts.lean ====
/-
  The one float constant whose value the equivalence needs: the word of 1.0 denotes the real number one. (The zero
  word's value is the library's; the slope word is never evaluated: both programs spell the same word.)
-/
import Idealize.ShloMosaic.PureOps.Ideal

noncomputable section

namespace Cert.Consts

open Idealize.ShloMosaic

/-- `1.0` denotes `1`. -/
theorem ofBits_one : Ideal.ofBits .f32 0x3F800000#32 = 1 := by
  simp [Ideal.ofBits, Ideal.ieee, -EReal.coe_mul]; norm_num

end Cert.Consts

end
-- ==== Proof.RefBridge.lean ====
/-
  The reference's stages read at an index over the extended reals: they are the specification's functions.

  * The contraction of the features with the transposed weight is the projection's sum.
  * The host spells the logistic as one over one plus the exponential of the negation; with the word of 1.0 read as
    one this IS the logistic.
  * A lane sum from the zero word is the plain sum over the lanes; the rectifier with slope is the same select on both
    sides; the attention vector broadcast along every row reads entry k on lane k.
  * So the per-edge weight is the specification's, and the message (the raw row times the weight laid over the
    lanes) is the specification's message array.
-/
import proofs.«134800_j20641612824581_1_alg».proof.Proof.RefValue
import proofs.«134800_j20641612824581_1_alg».proof.Proof.Spec
import proofs.«134800_j20641612824581_1_alg».proof.Proof.Consts
import proofs.«134800_j20641612824581_1_alg».proof.Proof.LibPlainDot
import proofs.«134800_j20641612824581_1_alg».proof.Proof.LibKeepdims

set_option maxRecDepth 16384

noncomputable section

namespace Cert.ReferenceIdeal.Bridge

open Idealize.ShloMosaic Idealize.ShloMosaic.TcCoe Idealize.ShloMosaic.ValueIdx
open Cert.ReferenceIdeal Cert.ReferenceIdeal.Gen Cert.ReferenceIdeal.HandRun

/-- The host's contraction with the transposed weight, entry by entry, is the projection's sum. -/
theorem proj_eq (x : FVec Ideal S10000x128 .f32) (w : FVec Ideal S128x128 .f32) : proj x w = Cert.Spec.projAt x w := by
  funext j
  obtain ⟨p, q, rfl⟩ : ∃ (p : Fin 10000) (q : Fin 128), j = ix2 p q := ⟨j 0, j 1, eq_ix2 j⟩
  unfold proj Cert.Spec.projAt
  refine (Cert.PlainDot.dotGeneral_apply (M := 10000) (K := 128) (N := 128) none _ x _ (ix2 p q)).trans ?_
  exact Finset.sum_congr rfl fun k _ => congrArg₂ (· * ·) rfl (transpose_ix2_apply _ _ k q)

/-- The word of 1.0 broadcast over the edges reads one everywhere. -/
theorem one_bcast (j : S640000.Idx) :
    broadcastInDim S640000 ![] bcast_S_S640000 (constant (F := Ideal) S_ .f32 0x3F800000#32) j = 1 :=
  (Cert.Keepdims.broadcastInDim_scalar_apply _ _ j).trans Cert.Consts.ofBits_one

/-- One over one plus the exponential of the negation is the logistic. -/
theorem sigm_apply (x : FVec Ideal S640000 .f32) (p : Fin 640000) : sigm x (ix1 p) = Ideal.logistic (x (ix1 p)) := by
  unfold sigm
  show Ideal.div (broadcastInDim S640000 ![] bcast_S_S640000 (constant (F := Ideal) S_ .f32 0x3F800000#32) (ix1 p))
      (broadcastInDim S640000 ![] bcast_S_S640000 (constant (F := Ideal) S_ .f32 0x3F800000#32) (ix1 p) + Ideal.exp (-(x (ix1 p)))) = _
  rw [one_bcast]
  rfl

/-- The host's sum over the lanes from the zero word is the plain sum of the row. -/
theorem rsum_apply (x : FVec Ideal S640000x128 .f32) (p : Fin 640000) : rsum x (ix1 p) = ∑ k : Fin 128, x (ix2 p k) := by
  unfold rsum
  refine (Cert.Keepdims.hostRowSum_apply x _ reducesTo_S640000x128_S640000_d1 h_S_ (by decide) p).trans ?_
  show Ideal.ofBits .f32 0x00000000#32 + _ = _
  rw [Ideal.ofBits_zero_f32, zero_add]

/-- The host's rectifier with slope, entry by entry, is the specification's. -/
theorem lrelu_apply (s : FVec Ideal S640000x128 .f32) (j : S640000x128.Idx) : lrelu s j = Cert.Spec.slope (s j) := by
  unfold lrelu Cert.Spec.slope
  show Scalar.select (Ideal.cmp .oge (s j) (broadcastInDim S640000x128 ![] bcast_S_S640000x128 (constant (F := Ideal) S_ .f32 0x00000000#32) j)) (s j)
      (broadcastInDim S640000x128 ![] bcast_S_S640000x128 (id (constant (F := Ideal) S_ .f32 0x3E4CCCCD#32)) j * s j) = _
  rw [Cert.Keepdims.broadcastInDim_scalar_apply, Cert.Keepdims.broadcastInDim_scalar_apply]
  rfl

/-- The attention vector laid along every edge's row reads entry k on lane k. -/
theorem attn_apply (a : FVec Ideal S1x1x128 .f32) (p : Fin 640000) (k : Fin 128) :
    attnRows a (ix2 p k) = a (ix3 (0 : Fin 1) (0 : Fin 1) k) := by
  have e1 := Cert.Keepdims.broadcastInDim_1b_ab_apply (a := 640000) (b := 128)
    (broadcastInDim S1x128 ![1] bcast_S128_S1x128_1 (fun i => shapeCast S128 a shapeCasts_S1x1x128_S128 i)) bcast_S1x128_S640000x128_0_1 p k
  have e2 := Cert.Keepdims.broadcastInDim_b_1b_apply (b := 128) (fun i => shapeCast S128 a shapeCasts_S1x1x128_S128 i) bcast_S128_S1x128_1 (0 : Fin 1) k
  have e3 := Cert.Keepdims.shapeCast_11b_b_apply (b := 128) a shapeCasts_S1x1x128_S128 k
  exact e1.trans (e2.trans e3)

/-- The reference's per-edge weight is the specification's. -/
theorem weight_apply (el er : FVec Ideal S640000x128 .f32) (a : FVec Ideal S1x1x128 .f32) (p : Fin 640000) :
    weight el er a (ix1 p) = Cert.Spec.edgeWeight el er (fun k => a (ix3 (0 : Fin 1) (0 : Fin 1) k)) p := by
  unfold weight Cert.Spec.edgeWeight Cert.Spec.score Cert.Spec.endsDot
  rw [sigm_apply, mulf_apply, sigm_apply, rsum_apply, rsum_apply]
  refine congrArg Ideal.logistic (congrArg₂ (· * ·) (Finset.sum_congr rfl fun k _ => ?_) rfl)
  rw [mulf_apply, lrelu_apply, attn_apply]
  rfl

/-- The reference's message array is the specification's. -/
theorem msg_eq (el er fs : FVec Ideal S640000x128 .f32) (a : FVec Ideal S1x1x128 .f32) :
    msg fs (weight el er a) = Cert.Spec.msgAt el er fs (fun k => a (ix3 (0 : Fin 1) (0 : Fin 1) k)) := by
  funext j
  obtain ⟨p, q, rfl⟩ : ∃ (p : Fin 640000) (q : Fin 128), j = ix2 p q := ⟨j 0, j 1, eq_ix2 j⟩
  unfold msg Cert.Spec.msgAt
  show fs (ix2 p q) * broadcastInDim S640000x128 ![0, 1] bcast_S640000x1_S640000x128_0_1
      (broadcastInDim S640000x1 ![0] bcast_S640000_S640000x1_0 (weight el er a)) (ix2 p q) = fs (ix2 p q) * _
  refine congrArg (fs (ix2 p q) * ·) ?_
  have e1 := Cert.Keepdims.broadcastInDim_a1_ab_apply (a := 640000) (b := 128)
    (broadcastInDim S640000x1 ![0] bcast_S640000_S640000x1_0 (weight el er a)) bcast_S640000x1_S640000x128_0_1 p q
  have e2 := Cert.Keepdims.broadcastInDim_a_a1_apply (a := 640000) (weight el er a) bcast_S640000_S640000x1_0 p (0 : Fin 1)
  exact e1.trans (e2.trans (weight_apply el er a p))

/-- The whole reference over the specification's projection and message array. -/
theorem whole_eq (x : FVec Ideal S10000x128 .f32) (w : FVec Ideal S128x128 .f32) (a : FVec Ideal S1x1x128 .f32) (e : FVec Ideal S1 .f32)
    (s d : IVec S640000 32) :
    whole x w a e s d
      = tail (Cert.Spec.msgAt (rows (F := Ideal) (Cert.Spec.projAt x w) s) (rows (F := Ideal) (Cert.Spec.projAt x w) d) (rows x s)
          (fun k => a (ix3 (0 : Fin 1) (0 : Fin 1) k))) d e x := by
  unfold whole
  rw [proj_eq, msg_eq]

end Cert.ReferenceIdeal.Bridge

end
-- ==== Proof.Claims.lean ====
/-
  The claims. Both programs compute, from the same six arrays, the closing stretch of ONE message array: the
  specification's, over rows gathered from the specification's projection and from the raw features, with the attention
  vector's entries on the lanes. The kernel reaches it through its two regions' blocks, the reference through its host
  operations read at an index; the gathers and the closing stretch are the same operations in both programs and are never
  opened. No law needs finiteness: sums are re-indexed, never distributed over, so the precondition is not used.
-/
import proofs.«134800_j20641612824581_1_alg».proof.Defs
import proofs.«134800_j20641612824581_1_alg».proof.Proof.Gen.Kernel.Frame
import proofs.«134800_j20641612824581_1_alg».proof.Proof.Gen.KernelIdeal.Frame
import proofs.«134800_j20641612824581_1_alg».proof.Proof.Gen.ReferenceIdeal
import proofs.«134800_j20641612824581_1_alg».proof.Proof.Gen.Pre_finite_inputs
import proofs.«134800_j20641612824581_1_alg».proof.Proof.KernelValue
import proofs.«134800_j20641612824581_1_alg».proof.Proof.RefBridge

set_option maxRecDepth 16384

noncomputable section

namespace Cert.Proof.Claims

open Idealize.ShloMosaic Idealize.ShloMosaic.TcCoe Idealize.ShloMosaic.ValueIdx Idealize.SL.Sem

/-! ## The operations the two programs share -/

attribute [local irreducible] Host.gather in
/-- The two programs gather rows at the wrapped edge ends by the same operations. -/
theorem rows_eq (p : FVec Ideal Cert.KernelIdeal.S10000x128 .f32) (a : IVec Cert.KernelIdeal.S640000 32) :
    Cert.KernelIdeal.Hand.rows p a = Cert.ReferenceIdeal.HandRun.rows p a := rfl

attribute [local irreducible] Host.scatterAdd in
/-- The two programs close by the same operations. -/
theorem tail_eq (ms : FVec Ideal Cert.KernelIdeal.S640000x128 .f32) (a5 : IVec Cert.KernelIdeal.S640000 32)
    (a3 : FVec Ideal Cert.KernelIdeal.S1 .f32) (a0 : FVec Ideal Cert.KernelIdeal.S10000x128 .f32) :
    Cert.KernelIdeal.Hand.tail ms a5 a3 a0 = Cert.ReferenceIdeal.HandRun.tail ms a5 a3 a0 := rfl

/-! ## The claims -/

theorem frame_k : Cert.frame_Kernel := fun m ρ _ => Cert.Kernel.Gen.frame m ρ

theorem frame_ki : Cert.frame_KernelIdeal := fun m ρ _ => Cert.KernelIdeal.Gen.frame m ρ

/-- The reference's run with the result dropped. -/
theorem frame_ri : Cert.frame_ReferenceIdeal := fun m ρ _ =>
  (θ_run Cert.ReferenceIdeal.defs _ _).mono (fun _ h c => (h c).2) (Cert.ReferenceIdeal.HandRun.run (F := Ideal) m ρ)

theorem preserves : Cert.preserves_Kernel_KernelIdeal := trivial

/-- The kernel's result buffer ends at its value (the run, then the value read), the reference's at `whole` of arguments
    that agree: both are the closing stretch of the specification's message array. -/
theorem algebraic : Cert.algebraic_KernelIdeal_ReferenceIdeal := by
  intro m ρ m' ρ' _ hagree
  refine ⟨fun c => Cert.KernelIdeal.Gen.W4 m ρ c (Proc.devRef .tc Cert.KernelIdeal.main_v40),
    Cert.KernelIdeal.Run.run_main (F := Ideal) m ρ, ?_⟩
  refine (θ_run Cert.ReferenceIdeal.defs _ _).mono (fun _ h c => ⟨(h c).1.trans ?_, (h c).2⟩)
    (Cert.ReferenceIdeal.HandRun.run (F := Ideal) m' ρ')
  obtain ⟨h0, h1, h2, h3, h4, h5⟩ := hagree c
  rw [h0, h1, h2, h3, h4, h5, Cert.ReferenceIdeal.Bridge.whole_eq]
  refine Eq.trans ?_ (Cert.KernelIdeal.Hand.value m ρ c).symm
  rw [tail_eq, rows_eq, rows_eq, rows_eq]

end Cert.Proof.Claims

end
-- ==== Proof.lean ====
/-
  The proof of `Cert.Claim`: the kernel (a projection by a matrix product tiled over node rows, then a fused per-edge
  attention weight and message tiled over edges, with the row gathers and the sum into node rows on the host around them)
  against its reference, equal over the extended reals.

  Proof/Spec.lean states the mathematics (projection, per-edge weight, message) index by index. The kernel's side:
  Proof/KernelRun.lean (the run, with the result buffer's contents named), Proof/ProjCover.lean and Proof/MsgCover.lean
  (each region's output array is the specification's function: the body's block at a symbolic grid point, the blocks
  tiling the array), Proof/KernelHost.lean (the host operations around the regions), Proof/KernelValue.lean (the result as
  one function of the arguments). The reference's side: Proof/RefRun.lean (its run as one list of operations, the
  outlined rectifier inline), Proof/RefValue.lean (the result as named stages), Proof/RefBridge.lean (the stages read at an
  index are the specification's). Proof/Claims.lean joins them; the frames of the two kernel programs are the generated
  ones, the reference's its run with the result dropped, and the idealization rewrote nothing.
-/
import proofs.«134800_j20641612824581_1_alg».proof.Defs
import proofs.«134800_j20641612824581_1_alg».proof.Proof.Gen.Kernel
import proofs.«134800_j20641612824581_1_alg».proof.Proof.Gen.Kernel.Skeleton
import proofs.«134800_j20641612824581_1_alg».proof.Proof.Gen.Kernel.Launch
import proofs.«134800_j20641612824581_1_alg».proof.Proof.Gen.Kernel.Points
import proofs.«134800_j20641612824581_1_alg».proof.Proof.Gen.Kernel.Frame
import proofs.«134800_j20641612824581_1_alg».proof.Proof.Gen.KernelIdeal
import proofs.«134800_j20641612824581_1_alg».proof.Proof.Gen.KernelIdeal.Skeleton
import proofs.«134800_j20641612824581_1_alg».proof.Proof.Gen.KernelIdeal.Launch
import proofs.«134800_j20641612824581_1_alg».proof.Proof.Gen.KernelIdeal.Points
import proofs.«134800_j20641612824581_1_alg».proof.Proof.Gen.KernelIdeal.Frame
import proofs.«134800_j20641612824581_1_alg».proof.Proof.Gen.ReferenceIdeal
import proofs.«134800_j20641612824581_1_alg».proof.Proof.Gen.Pre_finite_inputs
import proofs.«134800_j20641612824581_1_alg».proof.Proof.Claims
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  Claims.frame_k, Claims.frame_ki, Claims.frame_ri, Claims.preserves, Claims.algebraic⟩

end Cert.Proof

end
